-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x70 : Shape := ⟨2, ![4096, 70]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x70 : S_.BroadcastsInDim S4096x70 (![] : Fin 0 → Fin S4096x70.rank)
  reducesTo_S4096x70_S_d0_1 : S4096x70.ReducesTo [0, 1] S_

variable [Facts]

def fn {F : FTy → Type} [FloatOps F] (main_arg0 : FVec F S4096x4096x2 .f32) (main_arg1 : FVec F S4096x70 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x70 .f32 := Host.absf main_arg1
  let main_cst_0 : FVec F S_ .f32 := constant S_ .f32 0x7F800000#32
  let main_v5 : FVec F S4096x70 .f32 := broadcastInDim S4096x70 ![] bcast_S_S4096x70 main_cst_0
  let main_v6 : IVec S4096x70 1 := cmpf .olt main_v4 main_v5
  let main_c_1 : IVec S_ 1 := constantI S_ 1 1#1
  let main_v7 : IVec S_ 1 := (fun x v => Host.reduce IntOp.andi x v reducesTo_S4096x70_S_d0_1 h_S_) main_v6 main_c_1
  let main_v8 : IVec S_ 1 := andi main_v3 main_v7
  main_v8
-- ==== Kernel.lean ====
abbrev S4096x4096x2 : Shape := ⟨3, ![4096, 4096, 2]⟩
abbrev S4096x70 : Shape := ⟨2, ![4096, 70]⟩
abbrev S4096x8192 : Shape := ⟨2, ![4096, 8192]⟩
abbrev S4096x2x70 : Shape := ⟨3, ![4096, 2, 70]⟩
abbrev S8192x70 : Shape := ⟨2, ![8192, 70]⟩
abbrev S512x1024 : Shape := ⟨2, ![512, 1024]⟩
abbrev S512x70 : Shape := ⟨2, ![512, 70]⟩
abbrev S1024x70 : Shape := ⟨2, ![1024, 70]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096x2, .f32⟩
  | .hbm, ⟨1, _⟩ => ⟨S4096x70, .f32⟩
  | .hbm, ⟨2, _⟩ => ⟨S4096x8192, .f32⟩
  | .hbm, ⟨3, _⟩ => ⟨S4096x2x70, .f32⟩
  | .hbm, ⟨4, _⟩ => ⟨S8192x70, .f32⟩
  | .hbm, ⟨5, _⟩ => ⟨S4096x70, .f32⟩
  | .hbm, ⟨6, _⟩ => ⟨S8192x70, .f32⟩
  | .hbm, ⟨7, _⟩ => ⟨S4096x2x70, .f32⟩
  | .hbm, ⟨8, _⟩ => ⟨S_, .f32⟩
  | .hbm, ⟨9, _⟩ => ⟨S4096x70, .f32⟩
  | .local _ .vmem, ⟨0, _⟩ => ⟨S512x1024, .f32⟩
  | .local _ .vmem, ⟨1, _⟩ => ⟨S512x1024, .f32⟩
  | .local _ .vmem, ⟨2, _⟩ => ⟨S4096x70, .f32⟩
  | .local _ .vmem, ⟨3, _⟩ => ⟨S8192x70, .f32⟩
  | .local _ .vmem, ⟨4, _⟩ => ⟨S4096x70, .f32⟩
  | .local _ .vmem, ⟨5, _⟩ => ⟨S8192x70, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c1024_i32 : BitVec 32 := 1024#32
  let v7 : BitVec 32 := Scalar.muli arg1 c1024_i32
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v12 : Index := Scalar.indexCast v6
  let c0_3 : Index := 0#32
  ![v12.toNat, 0]
def k0_off2 (i : grid0.Coords) : Fin 2 → Nat :=
  let arg1 : BitVec 32 := BitVec.ofNat 32 (i 1).val
  let c1024_i32 : BitVec 32 := 1024#32
  let v7 : BitVec 32 := Scalar.muli arg1 c1024_i32
  let v8 : BitVec 32 := v7
  let v15 : Index := Scalar.indexCast v8
  let c0_4 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x70 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x70 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x70 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192x70 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096x4096x2_S4096x8192 : S4096x4096x2.ShapeCasts S4096x8192
  bcast_S4096x70_S4096x2x70_0_2 : S4096x70.BroadcastsInDim S4096x2x70 (![0, 2] : Fin 2 → Fin S4096x2x70.rank)
  shapeCasts_S4096x2x70_S8192x70 : S4096x2x70.ShapeCasts S8192x70
  inb_S4096x70_S4096x70_0_0 : ∀ a, (![0, 0] : Fin 2 → Nat) a + S4096x70.size a ≤ S4096x70.size a
  h_S4096x70 : 0 < S4096x70.numel
  inb_S8192x70_S8192x70_0_0 : ∀ a, (![0, 0] : Fin 2 → Nat) a + S8192x70.size a ≤ S8192x70.size a
  h_S8192x70 : 0 < S8192x70.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  h_S512x70 : 0 < S512x70.numel
  h_S1024x70 : 0 < S1024x70.numel
  shapeCasts_S1024x70_S1024x70 : S1024x70.ShapeCasts S1024x70
  shapeCasts_S512x70_S512x70 : S512x70.ShapeCasts S512x70
  shapeCasts_S8192x70_S4096x2x70 : S8192x70.ShapeCasts S4096x2x70
  reducesTo_S4096x2x70_S4096x70_d1 : S4096x2x70.ReducesTo [1] S4096x70
  h_S_ : 0 < S_.numel
  dot_S512x1024_S1024x70_S512x70_1_0_0_1_n_n_wf : DotDims.WF S512x1024 S1024x70 S512x70 [1] [0] [0] [1] [] []
  dot_S512x1024_S512x70_S1024x70_0_0_1_1_n_n_wf : DotDims.WF S512x1024 S512x70 S1024x70 [0] [0] [1] [1] [] []
  hrank0 : 0 < grid0.rank
  k0_mult1_dvd : ∀ i : grid0.Coords, 512 ∣ (k0_mult1 i).toNat
  k0_mult2_dvd : ∀ i : grid0.Coords, 1024 ∣ (k0_mult2 i).toNat
  k0_off1_inb : ∀ i : grid0.Coords, ∀ a, (k0_off1 i) a + S512x70.size a ≤ S4096x70.size a
  k0_off2_inb : ∀ i : grid0.Coords, ∀ a, (k0_off2 i) a + S1024x70.size a ≤ S8192x70.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x70.size a ≤ S4096x70.size a
  hwx0_1 : ∀ i : grid0.Coords, EltTy.bits .f32 = 32 ∨ (Rect.block (s := S4096x70) S4096x70.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x70.size a ≤ S8192x70.size a
  hwx0_2 : ∀ i : grid0.Coords, EltTy.bits .f32 = 32 ∨ (Rect.block (s := S8192x70) S8192x70.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x70.size a ≤ S4096x70.size a
  hwx0_3 : ∀ i : grid0.Coords, EltTy.bits .f32 = 32 ∨ (Rect.block (s := S4096x70) S4096x70.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x70.size a ≤ S8192x70.size a
  hwx0_4 : ∀ i : grid0.Coords, EltTy.bits .f32 = 32 ∨ (Rect.block (s := S8192x70) S8192x70.size (cc0_transform_4 i) (hinb0_4 i)).WholeWords (EltTy.packing .f32)

variable [Facts₀]

def dot_S512x1024_S1024x70_S512x70_1_0_0_1_n_n : DotDims S512x1024 S1024x70 S512x70 where
  lhsContracting := [1]
  rhsContracting := [0]
  lhsNonContracting := [0]
  rhsNonContracting := [1]
  lhsBatch := []
  rhsBatch := []
  wf := dot_S512x1024_S1024x70_S512x70_1_0_0_1_n_n_wf
def dot_S512x1024_S512x70_S1024x70_0_0_1_1_n_n : DotDims S512x1024 S512x70 S1024x70 where
  lhsContracting := [0]
  rhsContracting := [0]
  lhsNonContracting := [1]
  rhsNonContracting := [1]
  lhsBatch := []
  rhsBatch := []
  wf := dot_S512x1024_S512x70_S1024x70_0_0_1_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x70.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x70.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x70.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S8192x70.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S4096x70 : Shape := ⟨2, ![4096, 70]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x70, .f32⟩
  | .hbm, ⟨2, _⟩ => ⟨S_, .f32⟩
  | .hbm, ⟨3, _⟩ => ⟨S4096x4096, .f32⟩
  | .hbm, ⟨4, _⟩ => ⟨S4096x70, .f32⟩
  | .hbm, ⟨5, _⟩ => ⟨S4096x70, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S4096x4096x2_S4096x4096_d2 : S4096x4096x2.ReducesTo [2] S4096x4096
  h_S_ : 0 < S_.numel
  dot_S4096x4096_S4096x70_S4096x70_0_0_1_1_n_n_wf : DotDims.WF S4096x4096 S4096x70 S4096x70 [0] [0] [1] [1] [] []
  dot_S4096x4096_S4096x70_S4096x70_1_0_0_1_n_n_wf : DotDims.WF S4096x4096 S4096x70 S4096x70 [1] [0] [0] [1] [] []

variable [Facts₀]

def dot_S4096x4096_S4096x70_S4096x70_0_0_1_1_n_n : DotDims S4096x4096 S4096x70 S4096x70 where
  lhsContracting := [0]
  rhsContracting := [0]
  lhsNonContracting := [1]
  rhsNonContracting := [1]
  lhsBatch := []
  rhsBatch := []
  wf := dot_S4096x4096_S4096x70_S4096x70_0_0_1_1_n_n_wf
def dot_S4096x4096_S4096x70_S4096x70_1_0_0_1_n_n : DotDims S4096x4096 S4096x70 S4096x70 where
  lhsContracting := [1]
  rhsContracting := [0]
  lhsNonContracting := [0]
  rhsNonContracting := [1]
  lhsBatch := []
  rhsBatch := []
  wf := dot_S4096x4096_S4096x70_S4096x70_1_0_0_1_n_n_wf

class Facts : Prop extends Facts₀ where

variable [Facts]
-- ==== Proof.KRuns.lean ====
/-
  The kernel body run once in each of its two control cases, on whole staging buffers at given contents.

  The body's branch (row block 0 and column block 0 together, so grid point 0 only) first fills both output buffers
  with zeros. In either case the body then loads the adjacency block, the 512 feature rows of its row block and the
  1024 repeated-feature rows of its column block, reads the 512 rows of the first output buffer and the 1024 rows of
  the second that it is about to update, and stores the sums back through the same rows. What each output buffer
  holds afterwards is recorded as the list of the stores made through it, newest first, over the contents it had.
-/
import proofs.«138078_j76536317215120_1_alg».proof.Proof.Gen.Kernel.Frame
import proofs.«138078_j76536317215120_1_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point of the row-major walk only. -/
theorem hcond0_0 : ∀ t : Fin cfg0.N, cond0_0 (grid0.coords t) ↔ t.val % 64 = 0 :=
  (by decide +kernel : ∀ t : Fin grid0.N, cond0_0 (grid0.coords t) ↔ t.val % 64 = 0)

/-- Each window's current staging buffer at point t, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x70 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x70 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x70 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x70 .f32 := win0_4.stage (cfg0.slots t 4)
abbrev hs0_4 (t : Fin cfg0.N) : (ms0_4 t).IsWhole := hstage0_4 ((cfg0.slots t 4).cast nbuf0_4)

set_option maxHeartbeats 1000000 in
/-- The body at the first point (the branch taken): the inputs' buffers come back as they were; each output buffer,
    whatever it held, ends at the stores made through it (the zero fill, then the updated rows), over some contents
    that no longer matter because the zero fill covers the buffer. -/
noncomputable def runA (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole) (hc0 : cond0_0 i)
    (x0 : Vec F S512x1024 .f32) (x1 : Vec F S4096x70 .f32) (x2 : Vec F S8192x70 .f32) :
    Σ' (L3 : List (View.Piece (Elt F) S4096x70 .f32)), { L4 : List (View.Piece (Elt F) S8192x70 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- The body at a later point (the branch not taken): the inputs' buffers come back as they were; each output
    buffer, holding xo3 (resp. xo4), ends at the one store of the updated rows over exactly those contents. -/
noncomputable def runB (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole) (hc0 : ¬cond0_0 i)
    (x0 : Vec F S512x1024 .f32) (x1 : Vec F S4096x70 .f32) (x2 : Vec F S8192x70 .f32) (xo3 : Vec F S4096x70 .f32) (xo4 : Vec F S8192x70 .f32) :
    Σ' (L3 : List (View.Piece (Elt F) S4096x70 .f32)), { L4 : List (View.Piece (Elt F) S8192x70 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexact H4

end Cert.Kernel.Body

end
-- ==== Proof.KData.lean ====
/-
  The proof data of the kernel's one pipeline, and its frame.

  The two output windows are the whole result arrays, held in their staging buffers across all 64 grid points and
  written back once, after the last. After point t each buffer holds an ACCUMULATOR: at the first point the zero
  fill with the point's rows updated, at a later point what the point before left with the point's rows updated.
  A point's update of the first buffer replaces rows 512 * ib .. 512 * ib + 511 (ib the row block) by the body's sum
  of those rows and the product of the adjacency block with the repeated-feature rows 1024 * cb .. (cb the column
  block); its update of the second replaces rows 1024 * cb .. 1024 * cb + 1023 by the sum of those rows and the
  product of the transposed adjacency block with feature rows 512 * ib ... Both are stated over the body's own
  arithmetic, so they hold at every float instance.
-/
import proofs.«138078_j76536317215120_1_alg».proof.Proof.KRuns
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → ℕ) = fun _ => 0 := by funext a; fin_cases a <;> rfl

/-! ## One point's update of each output buffer -/

/-- The first output buffer after a point at coordinates i: rows 512 * i 0 .. + 511 replaced by the body's sum
    (the old rows plus adjacency block times the repeated-feature rows of the column block), the rest kept. -/
def stepOut (i : grid0.Coords) (x0 : Vec F S512x1024 .f32) (x2 : Vec F S8192x70 .f32) (prev : Vec F S4096x70 .f32) :
    Vec F S4096x70 .f32 := fun y =>
  if h : 512 * (i 0).val ≤ (y (0 : Fin 2)).val ∧ (y (0 : Fin 2)).val < 512 * (i 0).val + 512 then
    k0_pay4 x0 (View.ld x2 (Rect.unit (k0_off2 i) S1024x70.size (k0_off2_inb i)))
      (View.ld prev (Rect.unit (k0_off1 i) S512x70.size (k0_off1_inb i)))
      (Rect.unitLocal (s := S4096x70) (off := ![512 * (i 0).val, 0]) (size := S512x70.size) y (Rect.unit_rows_mem y rfl rfl h))
  else prev y

/-- The second output buffer after a point at coordinates i: rows 1024 * i 1 .. + 1023 replaced by the body's sum
    (the old rows plus transposed adjacency block times the feature rows of the row block), the rest kept. -/
def stepTmp (i : grid0.Coords) (x0 : Vec F S512x1024 .f32) (x1 : Vec F S4096x70 .f32) (prev : Vec F S8192x70 .f32) :
    Vec F S8192x70 .f32 := fun y =>
  if h : 1024 * (i 1).val ≤ (y (0 : Fin 2)).val ∧ (y (0 : Fin 2)).val < 1024 * (i 1).val + 1024 then
    k0_pay5 x0 (View.ld x1 (Rect.unit (k0_off1 i) S512x70.size (k0_off1_inb i)))
      (View.ld prev (Rect.unit (k0_off2 i) S1024x70.size (k0_off2_inb i)))
      (Rect.unitLocal (s := S8192x70) (off := ![1024 * (i 1).val, 0]) (size := S1024x70.size) y (Rect.unit_rows_mem y rfl rfl h))
  else prev y

/-! ## What the runs leave is that update -/

/-- A buffer whose newest-but-some store is the zero fill of the whole first output reads zero everywhere. -/
theorem read_fill3 {κ : Kind} {sp : Space} (v : View sig κ sp S4096x70 .f32) (g : v.ty.Contents (Elt F))
    (L : List (View.Piece (Elt F) S4096x70 .f32)) :
    v.read (Elt F) (v.writes (Elt F) g ((⟨Rect.unit (s := S4096x70) ![0, 0] ![4096, 70] inb_S4096x70_S4096x70_0_0, k0_pay1 (F := F)⟩ : View.Piece (Elt F) S4096x70 .f32) :: L))
      = k0_pay1 (F := F) := by
  funext y
  rw [View.read_writes_cons_rows (o := 0) (W := 4096) v g inb_S4096x70_S4096x70_0_0 _ L y rfl rfl rfl,
    dif_pos ⟨Nat.zero_le _, by rw [Nat.zero_add]; exact (y (0 : Fin 2)).isLt⟩]
  rfl

/-- The same for the second output. -/
theorem read_fill4 {κ : Kind} {sp : Space} (v : View sig κ sp S8192x70 .f32) (g : v.ty.Contents (Elt F))
    (L : List (View.Piece (Elt F) S8192x70 .f32)) :
    v.read (Elt F) (v.writes (Elt F) g ((⟨Rect.unit (s := S8192x70) ![0, 0] ![8192, 70] inb_S8192x70_S8192x70_0_0, k0_pay2 (F := F)⟩ : View.Piece (Elt F) S8192x70 .f32) :: L))
      = k0_pay2 (F := F) := by
  funext y
  rw [View.read_writes_cons_rows (o := 0) (W := 8192) v g inb_S8192x70_S8192x70_0_0 _ L y rfl rfl rfl,
    dif_pos ⟨Nat.zero_le _, by rw [Nat.zero_add]; exact (y (0 : Fin 2)).isLt⟩]
  rfl

section Leaves

variable (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole)
  (x0 : Vec F S512x1024 .f32) (x1 : Vec F S4096x70 .f32) (x2 : Vec F S8192x70 .f32)

/-- At a later point the first output buffer is left at its update over what it held. -/
theorem leavesB3 (hc0 : ¬cond0_0 i) (xo3 : Vec F S4096x70 .f32) (xo4 : Vec F S8192x70 .f32) :
    arg5.view.read (Elt F) (arg5.view.writes (Elt F) (harg5.unread xo3) (runB c i arg2 harg2 arg3 harg3 arg4 harg4 arg5 harg5 arg6 harg6 hc0 x0 x1 x2 xo3 xo4).1)
      = stepOut i x0 x2 xo3 := by
  funext y
  unfold runB; dsimp only
  rw [View.read_writes_cons_rows (o := 512 * (i 0).val) (W := 512) arg5.view _ (k0_off1_inb i) _ [] y (k0_off1_eq i) rfl rfl]
  unfold stepOut
  simp only [View.writes_nil, View.readAt_eq_ld, harg2.read_unread, harg4.read_unread, harg5.read_unread, View.ld_unit_zero (S := S512x1024) zero_offsets]

/-- At a later point the second output buffer is left at its update over what it held. -/
theorem leavesB4 (hc0 : ¬cond0_0 i) (xo3 : Vec F S4096x70 .f32) (xo4 : Vec F S8192x70 .f32) :
    arg6.view.read (Elt F) (arg6.view.writes (Elt F) (harg6.unread xo4) (runB c i arg2 harg2 arg3 harg3 arg4 harg4 arg5 harg5 arg6 harg6 hc0 x0 x1 x2 xo3 xo4).2.1)
      = stepTmp i x0 x1 xo4 := by
  funext y
  unfold runB; dsimp only
  rw [View.read_writes_cons_rows (o := 1024 * (i 1).val) (W := 1024) arg6.view _ (k0_off2_inb i) _ [] y (k0_off2_eq i) rfl rfl]
  unfold stepTmp
  simp only [View.writes_nil, View.readAt_eq_ld, harg2.read_unread, harg3.read_unread, harg6.read_unread, View.ld_unit_zero (S := S512x1024) zero_offsets]

/-- At the first point the first output buffer is left at its update over the zero fill, whatever it held. -/
theorem leavesA3 (hc0 : cond0_0 i) (f : arg5.view.ty.Contents (Elt F)) :
    arg5.view.read (Elt F) (arg5.view.writes (Elt F) f (runA c i arg2 harg2 arg3 harg3 arg4 harg4 arg5 harg5 arg6 harg6 hc0 x0 x1 x2).1)
      = stepOut i x0 x2 (k0_pay1 (F := F)) := by
  funext y
  unfold runA; dsimp only; unfold runA.sl.H3_1
  refine (View.read_writes_cons_rows (o := 512 * (i 0).val) (W := 512) arg5.view _ (k0_off1_inb i) _ _ y (k0_off1_eq i) rfl rfl).trans ?_
  unfold stepOut
  simp only [View.readAt_eq_ld, harg2.read_unread, harg4.read_unread, read_fill3, View.ld_unit_zero (S := S512x1024) zero_offsets]

/-- At the first point the second output buffer is left at its update over the zero fill, whatever it held. -/
theorem leavesA4 (hc0 : cond0_0 i) (f : arg6.view.ty.Contents (Elt F)) :
    arg6.view.read (Elt F) (arg6.view.writes (Elt F) f (runA c i arg2 harg2 arg3 harg3 arg4 harg4 arg5 harg5 arg6 harg6 hc0 x0 x1 x2).2.1)
      = stepTmp i x0 x1 (k0_pay2 (F := F)) := by
  funext y
  unfold runA; dsimp only; unfold runA.sl.H4_1
  refine (View.read_writes_cons_rows (o := 1024 * (i 1).val) (W := 1024) arg6.view _ (k0_off2_inb i) _ _ y (k0_off2_eq i) rfl rfl).trans ?_
  unfold stepTmp
  simp only [View.readAt_eq_ld, harg2.read_unread, harg3.read_unread, read_fill4, View.ld_unit_zero (S := S512x1024) zero_offsets]

end Leaves

/-! ## The accumulators -/

/-- The first output buffer after the body at position n of the walk. -/
def accOut (c : Dev nD) : (n : ℕ) → n < cfg0.N → Vec F S4096x70 .f32
  | 0, hn => stepOut (grid0.coords ⟨0, hn⟩) (iblk m c 0 ⟨0, hn⟩) (iblk m c 2 ⟨0, hn⟩) (k0_pay1 (F := F))
  | n + 1, hn => stepOut (grid0.coords ⟨n + 1, hn⟩) (iblk m c 0 ⟨n + 1, hn⟩) (iblk m c 2 ⟨n + 1, hn⟩) (accOut c n (Nat.lt_of_succ_lt hn))

/-- The second output buffer after the body at position n of the walk. -/
def accTmp (c : Dev nD) : (n : ℕ) → n < cfg0.N → Vec F S8192x70 .f32
  | 0, hn => stepTmp (grid0.coords ⟨0, hn⟩) (iblk m c 0 ⟨0, hn⟩) (iblk m c 1 ⟨0, hn⟩) (k0_pay2 (F := F))
  | n + 1, hn => stepTmp (grid0.coords ⟨n + 1, hn⟩) (iblk m c 0 ⟨n + 1, hn⟩) (iblk m c 1 ⟨n + 1, hn⟩) (accTmp c n (Nat.lt_of_succ_lt hn))

theorem accOut_first (c : Dev nD) (t : Fin cfg0.N) (h0 : t.val % 64 = 0) :
    accOut m c t.val t.isLt = stepOut (grid0.coords t) (iblk m c 0 t) (iblk m c 2 t) (k0_pay1 (F := F)) := by
  have hN : t.val < 64 := lt_of_lt_of_eq t.isLt (show cfg0.N = 64 from N_0)
  obtain ⟨n, hn⟩ := t
  cases n with
  | zero => rfl
  | succ n => exfalso; dsimp only at h0 hN; omega

theorem accOut_later (c : Dev nD) (t : Fin cfg0.N) (h0 : ¬t.val % 64 = 0) :
    accOut m c t.val t.isLt = stepOut (grid0.coords t) (iblk m c 0 t) (iblk m c 2 t)
      (accOut m c (t.val - 1) (Nat.lt_of_le_of_lt (Nat.sub_le _ _) t.isLt)) := by
  obtain ⟨n, hn⟩ := t
  cases n with
  | zero => exact absurd (Nat.zero_mod _) h0
  | succ n => rfl

theorem accTmp_first (c : Dev nD) (t : Fin cfg0.N) (h0 : t.val % 64 = 0) :
    accTmp m c t.val t.isLt = stepTmp (grid0.coords t) (iblk m c 0 t) (iblk m c 1 t) (k0_pay2 (F := F)) := by
  have hN : t.val < 64 := lt_of_lt_of_eq t.isLt (show cfg0.N = 64 from N_0)
  obtain ⟨n, hn⟩ := t
  cases n with
  | zero => rfl
  | succ n => exfalso; dsimp only at h0 hN; omega

theorem accTmp_later (c : Dev nD) (t : Fin cfg0.N) (h0 : ¬t.val % 64 = 0) :
    accTmp m c t.val t.isLt = stepTmp (grid0.coords t) (iblk m c 0 t) (iblk m c 1 t)
      (accTmp m c (t.val - 1) (Nat.lt_of_le_of_lt (Nat.sub_le _ _) t.isLt)) := by
  obtain ⟨n, hn⟩ := t
  cases n with
  | zero => exact absurd (Nat.zero_mod _) h0
  | succ n => rfl

/-! ## The proof data -/

/-- The pipeline's proof data on core c: the arrays as the region finds them; after the body each input's buffer at
    its block and each output's at its accumulator; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accOut m c t.val t.isLt
    | ⟨4, _⟩ => accTmp m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accOut m c t.val t.isLt := by dsimp only [dats]
theorem after0_4 (c : Dev nD) (t : Fin cfg0.N) : (dats m 0 c).after 4 t = accTmp m c t.val t.isLt := by dsimp only [dats]

/-- Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point the first output's buffer holds what the point before left: it is not the first point, the
    buffer is written back only after the last point, and the window is live and uncut everywhere. -/
theorem before0_3_later (c : Dev nD) (t : Fin cfg0.N) (h0 : ¬t.val % 64 = 0) (d) :
    (dats m 0 c).before 3 t d = accOut m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- The same for the second output. -/
theorem before0_4_later (c : Dev nD) (t : Fin cfg0.N) (h0 : ¬t.val % 64 = 0) (d) :
    (dats m 0 c).before 4 t d = accTmp m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1000000 in
/-- The body at any point: the inputs' buffers hold their blocks; at the first point the outputs' buffers hold
    anything and the run fills them; at a later point they hold what the point before left and the run updates that. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 64 = 0
  · rw [accOut_first m c t h0, accTmp_first m c t h0]
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact leavesA3 c _ _ _ _ _ _ _ _ _ _ _ _ _ _ _ _
    unfold owns; iexists _; isplitr
    swap; · iexact H4
    ipureintro; exact leavesA4 c _ _ _ _ _ _ _ _ _ _ _ _ _ _ _ _
  · rw [accOut_later m c t h0, accTmp_later m c t h0]
    simp only [before0_3_later m c t h0, before0_4_later m c t h0]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact leavesB3 c _ _ _ _ _ _ _ _ _ _ _ _ _ _ _ _ _
    unfold owns; iexists _; isplitr
    swap; · iexact H4
    ipureintro; exact leavesB4 c _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof
    data say (an input its entry contents, an output its accumulator after the last point, written back), and every
    other unscoped buffer what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIRuns.lean ====
/-
  The kernel body run once in each of its two control cases, on whole staging buffers at given contents.

  The body's branch (row block 0 and column block 0 together, so grid point 0 only) first fills both output buffers
  with zeros. In either case the body then loads the adjacency block, the 512 feature rows of its row block and the
  1024 repeated-feature rows of its column block, reads the 512 rows of the first output buffer and the 1024 rows of
  the second that it is about to update, and stores the sums back through the same rows. What each output buffer
  holds afterwards is recorded as the list of the stores made through it, newest first, over the contents it had.
-/
import proofs.«138078_j76536317215120_1_alg».proof.Proof.Gen.KernelIdeal.Frame
import proofs.«138078_j76536317215120_1_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point of the row-major walk only. -/
theorem hcond0_0 : ∀ t : Fin cfg0.N, cond0_0 (grid0.coords t) ↔ t.val % 64 = 0 :=
  (by decide +kernel : ∀ t : Fin grid0.N, cond0_0 (grid0.coords t) ↔ t.val % 64 = 0)

/-- Each window's current staging buffer at point t, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x70 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x70 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x70 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x70 .f32 := win0_4.stage (cfg0.slots t 4)
abbrev hs0_4 (t : Fin cfg0.N) : (ms0_4 t).IsWhole := hstage0_4 ((cfg0.slots t 4).cast nbuf0_4)

set_option maxHeartbeats 1000000 in
/-- The body at the first point (the branch taken): the inputs' buffers come back as they were; each output buffer,
    whatever it held, ends at the stores made through it (the zero fill, then the updated rows), over some contents
    that no longer matter because the zero fill covers the buffer. -/
noncomputable def runA (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole) (hc0 : cond0_0 i)
    (x0 : Vec F S512x1024 .f32) (x1 : Vec F S4096x70 .f32) (x2 : Vec F S8192x70 .f32) :
    Σ' (L3 : List (View.Piece (Elt F) S4096x70 .f32)), { L4 : List (View.Piece (Elt F) S8192x70 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- The body at a later point (the branch not taken): the inputs' buffers come back as they were; each output
    buffer, holding xo3 (resp. xo4), ends at the one store of the updated rows over exactly those contents. -/
noncomputable def runB (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole) (hc0 : ¬cond0_0 i)
    (x0 : Vec F S512x1024 .f32) (x1 : Vec F S4096x70 .f32) (x2 : Vec F S8192x70 .f32) (xo3 : Vec F S4096x70 .f32) (xo4 : Vec F S8192x70 .f32) :
    Σ' (L3 : List (View.Piece (Elt F) S4096x70 .f32)), { L4 : List (View.Piece (Elt F) S8192x70 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexact H4

end Cert.KernelIdeal.Body

end
-- ==== Proof.KIData.lean ====
/-
  The proof data of the kernel's one pipeline, and its frame.

  The two output windows are the whole result arrays, held in their staging buffers across all 64 grid points and
  written back once, after the last. After point t each buffer holds an ACCUMULATOR: at the first point the zero
  fill with the point's rows updated, at a later point what the point before left with the point's rows updated.
  A point's update of the first buffer replaces rows 512 * ib .. 512 * ib + 511 (ib the row block) by the body's sum
  of those rows and the product of the adjacency block with the repeated-feature rows 1024 * cb .. (cb the column
  block); its update of the second replaces rows 1024 * cb .. 1024 * cb + 1023 by the sum of those rows and the
  product of the transposed adjacency block with feature rows 512 * ib ... Both are stated over the body's own
  arithmetic, so they hold at every float instance.
-/
import proofs.«138078_j76536317215120_1_alg».proof.Proof.KIRuns
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → ℕ) = fun _ => 0 := by funext a; fin_cases a <;> rfl

/-! ## One point's update of each output buffer -/

/-- The first output buffer after a point at coordinates i: rows 512 * i 0 .. + 511 replaced by the body's sum
    (the old rows plus adjacency block times the repeated-feature rows of the column block), the rest kept. -/
def stepOut (i : grid0.Coords) (x0 : Vec F S512x1024 .f32) (x2 : Vec F S8192x70 .f32) (prev : Vec F S4096x70 .f32) :
    Vec F S4096x70 .f32 := fun y =>
  if h : 512 * (i 0).val ≤ (y (0 : Fin 2)).val ∧ (y (0 : Fin 2)).val < 512 * (i 0).val + 512 then
    k0_pay4 x0 (View.ld x2 (Rect.unit (k0_off2 i) S1024x70.size (k0_off2_inb i)))
      (View.ld prev (Rect.unit (k0_off1 i) S512x70.size (k0_off1_inb i)))
      (Rect.unitLocal (s := S4096x70) (off := ![512 * (i 0).val, 0]) (size := S512x70.size) y (Rect.unit_rows_mem y rfl rfl h))
  else prev y

/-- The second output buffer after a point at coordinates i: rows 1024 * i 1 .. + 1023 replaced by the body's sum
    (the old rows plus transposed adjacency block times the feature rows of the row block), the rest kept. -/
def stepTmp (i : grid0.Coords) (x0 : Vec F S512x1024 .f32) (x1 : Vec F S4096x70 .f32) (prev : Vec F S8192x70 .f32) :
    Vec F S8192x70 .f32 := fun y =>
  if h : 1024 * (i 1).val ≤ (y (0 : Fin 2)).val ∧ (y (0 : Fin 2)).val < 1024 * (i 1).val + 1024 then
    k0_pay5 x0 (View.ld x1 (Rect.unit (k0_off1 i) S512x70.size (k0_off1_inb i)))
      (View.ld prev (Rect.unit (k0_off2 i) S1024x70.size (k0_off2_inb i)))
      (Rect.unitLocal (s := S8192x70) (off := ![1024 * (i 1).val, 0]) (size := S1024x70.size) y (Rect.unit_rows_mem y rfl rfl h))
  else prev y

/-! ## What the runs leave is that update -/

/-- A buffer whose newest-but-some store is the zero fill of the whole first output reads zero everywhere. -/
theorem read_fill3 {κ : Kind} {sp : Space} (v : View sig κ sp S4096x70 .f32) (g : v.ty.Contents (Elt F))
    (L : List (View.Piece (Elt F) S4096x70 .f32)) :
    v.read (Elt F) (v.writes (Elt F) g ((⟨Rect.unit (s := S4096x70) ![0, 0] ![4096, 70] inb_S4096x70_S4096x70_0_0, k0_pay1 (F := F)⟩ : View.Piece (Elt F) S4096x70 .f32) :: L))
      = k0_pay1 (F := F) := by
  funext y
  rw [View.read_writes_cons_rows (o := 0) (W := 4096) v g inb_S4096x70_S4096x70_0_0 _ L y rfl rfl rfl,
    dif_pos ⟨Nat.zero_le _, by rw [Nat.zero_add]; exact (y (0 : Fin 2)).isLt⟩]
  rfl

/-- The same for the second output. -/
theorem read_fill4 {κ : Kind} {sp : Space} (v : View sig κ sp S8192x70 .f32) (g : v.ty.Contents (Elt F))
    (L : List (View.Piece (Elt F) S8192x70 .f32)) :
    v.read (Elt F) (v.writes (Elt F) g ((⟨Rect.unit (s := S8192x70) ![0, 0] ![8192, 70] inb_S8192x70_S8192x70_0_0, k0_pay2 (F := F)⟩ : View.Piece (Elt F) S8192x70 .f32) :: L))
      = k0_pay2 (F := F) := by
  funext y
  rw [View.read_writes_cons_rows (o := 0) (W := 8192) v g inb_S8192x70_S8192x70_0_0 _ L y rfl rfl rfl,
    dif_pos ⟨Nat.zero_le _, by rw [Nat.zero_add]; exact (y (0 : Fin 2)).isLt⟩]
  rfl

section Leaves

variable (c : Dev nD) (i : grid0.Coords) (arg2 : Memref sig .tc .vmem S512x1024 .f32) (harg2 : arg2.IsWhole) (arg3 : Memref sig .tc .vmem S4096x70 .f32) (harg3 : arg3.IsWhole) (arg4 : Memref sig .tc .vmem S8192x70 .f32) (harg4 : arg4.IsWhole) (arg5 : Memref sig .tc .vmem S4096x70 .f32) (harg5 : arg5.IsWhole) (arg6 : Memref sig .tc .vmem S8192x70 .f32) (harg6 : arg6.IsWhole)
  (x0 : Vec F S512x1024 .f32) (x1 : Vec F S4096x70 .f32) (x2 : Vec F S8192x70 .f32)

/-- At a later point the first output buffer is left at its update over what it held. -/
theorem leavesB3 (hc0 : ¬cond0_0 i) (xo3 : Vec F S4096x70 .f32) (xo4 : Vec F S8192x70 .f32) :
    arg5.view.read (Elt F) (arg5.view.writes (Elt F) (harg5.unread xo3) (runB c i arg2 harg2 arg3 harg3 arg4 harg4 arg5 harg5 arg6 harg6 hc0 x0 x1 x2 xo3 xo4).1)
      = stepOut i x0 x2 xo3 := by
  funext y
  unfold runB; dsimp only
  rw [View.read_writes_cons_rows (o := 512 * (i 0).val) (W := 512) arg5.view _ (k0_off1_inb i) _ [] y (k0_off1_eq i) rfl rfl]
  unfold stepOut
  simp only [View.writes_nil, View.readAt_eq_ld, harg2.read_unread, harg4.read_unread, harg5.read_unread, View.ld_unit_zero (S := S512x1024) zero_offsets]

/-- At a later point the second output buffer is left at its update over what it held. -/
theorem leavesB4 (hc0 : ¬cond0_0 i) (xo3 : Vec F S4096x70 .f32) (xo4 : Vec F S8192x70 .f32) :
    arg6.view.read (Elt F) (arg6.view.writes (Elt F) (harg6.unread xo4) (runB c i arg2 harg2 arg3 harg3 arg4 harg4 arg5 harg5 arg6 harg6 hc0 x0 x1 x2 xo3 xo4).2.1)
      = stepTmp i x0 x1 xo4 := by
  funext y
  unfold runB; dsimp only
  rw [View.read_writes_cons_rows (o := 1024 * (i 1).val) (W := 1024) arg6.view _ (k0_off2_inb i) _ [] y (k0_off2_eq i) rfl rfl]
  unfold stepTmp
  simp only [View.writes_nil, View.readAt_eq_ld, harg2.read_unread, harg3.read_unread, harg6.read_unread, View.ld_unit_zero (S := S512x1024) zero_offsets]

/-- At the first point the first output buffer is left at its update over the zero fill, whatever it held. -/
theorem leavesA3 (hc0 : cond0_0 i) (f : arg5.view.ty.Contents (Elt F)) :
    arg5.view.read (Elt F) (arg5.view.writes (Elt F) f (runA c i arg2 harg2 arg3 harg3 arg4 harg4 arg5 harg5 arg6 harg6 hc0 x0 x1 x2).1)
      = stepOut i x0 x2 (k0_pay1 (F := F)) := by
  funext y
  unfold runA; dsimp only; unfold runA.sl.H3_1
  refine (View.read_writes_cons_rows (o := 512 * (i 0).val) (W := 512) arg5.view _ (k0_off1_inb i) _ _ y (k0_off1_eq i) rfl rfl).trans ?_
  unfold stepOut
  simp only [View.readAt_eq_ld, harg2.read_unread, harg4.read_unread, read_fill3, View.ld_unit_zero (S := S512x1024) zero_offsets]

/-- At the first point the second output buffer is left at its update over the zero fill, whatever it held. -/
theorem leavesA4 (hc0 : cond0_0 i) (f : arg6.view.ty.Contents (Elt F)) :
    arg6.view.read (Elt F) (arg6.view.writes (Elt F) f (runA c i arg2 harg2 arg3 harg3 arg4 harg4 arg5 harg5 arg6 harg6 hc0 x0 x1 x2).2.1)
      = stepTmp i x0 x1 (k0_pay2 (F := F)) := by
  funext y
  unfold runA; dsimp only; unfold runA.sl.H4_1
  refine (View.read_writes_cons_rows (o := 1024 * (i 1).val) (W := 1024) arg6.view _ (k0_off2_inb i) _ _ y (k0_off2_eq i) rfl rfl).trans ?_
  unfold stepTmp
  simp only [View.readAt_eq_ld, harg2.read_unread, harg3.read_unread, read_fill4, View.ld_unit_zero (S := S512x1024) zero_offsets]

end Leaves

/-! ## The accumulators -/

/-- The first output buffer after the body at position n of the walk. -/
def accOut (c : Dev nD) : (n : ℕ) → n < cfg0.N → Vec F S4096x70 .f32
  | 0, hn => stepOut (grid0.coords ⟨0, hn⟩) (iblk m c 0 ⟨0, hn⟩) (iblk m c 2 ⟨0, hn⟩) (k0_pay1 (F := F))
  | n + 1, hn => stepOut (grid0.coords ⟨n + 1, hn⟩) (iblk m c 0 ⟨n + 1, hn⟩) (iblk m c 2 ⟨n + 1, hn⟩) (accOut c n (Nat.lt_of_succ_lt hn))

/-- The second output buffer after the body at position n of the walk. -/
def accTmp (c : Dev nD) : (n : ℕ) → n < cfg0.N → Vec F S8192x70 .f32
  | 0, hn => stepTmp (grid0.coords ⟨0, hn⟩) (iblk m c 0 ⟨0, hn⟩) (iblk m c 1 ⟨0, hn⟩) (k0_pay2 (F := F))
  | n + 1, hn => stepTmp (grid0.coords ⟨n + 1, hn⟩) (iblk m c 0 ⟨n + 1, hn⟩) (iblk m c 1 ⟨n + 1, hn⟩) (accTmp c n (Nat.lt_of_succ_lt hn))

theorem accOut_first (c : Dev nD) (t : Fin cfg0.N) (h0 : t.val % 64 = 0) :
    accOut m c t.val t.isLt = stepOut (grid0.coords t) (iblk m c 0 t) (iblk m c 2 t) (k0_pay1 (F := F)) := by
  have hN : t.val < 64 := lt_of_lt_of_eq t.isLt (show cfg0.N = 64 from N_0)
  obtain ⟨n, hn⟩ := t
  cases n with
  | zero => rfl
  | succ n => exfalso; dsimp only at h0 hN; omega

theorem accOut_later (c : Dev nD) (t : Fin cfg0.N) (h0 : ¬t.val % 64 = 0) :
    accOut m c t.val t.isLt = stepOut (grid0.coords t) (iblk m c 0 t) (iblk m c 2 t)
      (accOut m c (t.val - 1) (Nat.lt_of_le_of_lt (Nat.sub_le _ _) t.isLt)) := by
  obtain ⟨n, hn⟩ := t
  cases n with
  | zero => exact absurd (Nat.zero_mod _) h0
  | succ n => rfl

theorem accTmp_first (c : Dev nD) (t : Fin cfg0.N) (h0 : t.val % 64 = 0) :
    accTmp m c t.val t.isLt = stepTmp (grid0.coords t) (iblk m c 0 t) (iblk m c 1 t) (k0_pay2 (F := F)) := by
  have hN : t.val < 64 := lt_of_lt_of_eq t.isLt (show cfg0.N = 64 from N_0)
  obtain ⟨n, hn⟩ := t
  cases n with
  | zero => rfl
  | succ n => exfalso; dsimp only at h0 hN; omega

theorem accTmp_later (c : Dev nD) (t : Fin cfg0.N) (h0 : ¬t.val % 64 = 0) :
    accTmp m c t.val t.isLt = stepTmp (grid0.coords t) (iblk m c 0 t) (iblk m c 1 t)
      (accTmp m c (t.val - 1) (Nat.lt_of_le_of_lt (Nat.sub_le _ _) t.isLt)) := by
  obtain ⟨n, hn⟩ := t
  cases n with
  | zero => exact absurd (Nat.zero_mod _) h0
  | succ n => rfl

/-! ## The proof data -/

/-- The pipeline's proof data on core c: the arrays as the region finds them; after the body each input's buffer at
    its block and each output's at its accumulator; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accOut m c t.val t.isLt
    | ⟨4, _⟩ => accTmp m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accOut m c t.val t.isLt := by dsimp only [dats]
theorem after0_4 (c : Dev nD) (t : Fin cfg0.N) : (dats m 0 c).after 4 t = accTmp m c t.val t.isLt := by dsimp only [dats]

/-- Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point the first output's buffer holds what the point before left: it is not the first point, the
    buffer is written back only after the last point, and the window is live and uncut everywhere. -/
theorem before0_3_later (c : Dev nD) (t : Fin cfg0.N) (h0 : ¬t.val % 64 = 0) (d) :
    (dats m 0 c).before 3 t d = accOut m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- The same for the second output. -/
theorem before0_4_later (c : Dev nD) (t : Fin cfg0.N) (h0 : ¬t.val % 64 = 0) (d) :
    (dats m 0 c).before 4 t d = accTmp m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1000000 in
/-- The body at any point: the inputs' buffers hold their blocks; at the first point the outputs' buffers hold
    anything and the run fills them; at a later point they hold what the point before left and the run updates that. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 64 = 0
  · rw [accOut_first m c t h0, accTmp_first m c t h0]
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact leavesA3 c _ _ _ _ _ _ _ _ _ _ _ _ _ _ _ _
    unfold owns; iexists _; isplitr
    swap; · iexact H4
    ipureintro; exact leavesA4 c _ _ _ _ _ _ _ _ _ _ _ _ _ _ _ _
  · rw [accOut_later m c t h0, accTmp_later m c t h0]
    simp only [before0_3_later m c t h0, before0_4_later m c t h0]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact leavesB3 c _ _ _ _ _ _ _ _ _ _ _ _ _ _ _ _ _
    unfold owns; iexists _; isplitr
    swap; · iexact H4
    ipureintro; exact leavesB4 c _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof
    data say (an input its entry contents, an output its accumulator after the last point, written back), and every
    other unscoped buffer what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Pay4.lean ====
/-
  The body's arithmetic for the first output, read at an entry at the ideal instance (a float is an extended real,
  a change of float format is the identity, the matrix unit's product into a zero accumulator is the plain sum):
  the zero fill is 0 at every entry, and the updated rows are the old rows plus the adjacency block times the
  1024 repeated-feature rows, entry (a, d) being old (a, d) + sum over k of block (a, k) * rows (k, d).
-/
import proofs.«138078_j76536317215120_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Pay

open Cert.KernelIdeal Cert.KernelIdeal.Gen Idealize.ShloMosaic Idealize.ShloMosaic.ValueIdx

/-- The zero fill of the first output is 0 at every entry. -/
theorem pay1_apply (y : S4096x70.Idx) : (k0_pay1 (F := Ideal) y : EReal) = 0 := by
  unfold Gen.k0_pay1
  exact Ideal.ofBits_zero_f32

/-! The product's dimension numbers contract the left operand's axis 1 with the right operand's axis 0; the left
    operand's axis 0 and the right operand's axis 1 are the result's two axes. Each coordinate of the two operand
    indices, axis by axis. -/

/-- The left operand is read at the result's row … -/
theorem lhs_pay4_0 (i : S512x70.Idx) (q : dot_S512x1024_S1024x70_S512x70_1_0_0_1_n_n.contr.Idx) :
    (dot_S512x1024_S1024x70_S512x70_1_0_0_1_n_n.lhsIdx i q 0).val = (i 0).val := by
  unfold DotDims.lhsIdx
  rw [dif_neg (show ¬(0 : Fin S512x1024.rank) ∈ dot_S512x1024_S1024x70_S512x70_1_0_0_1_n_n.lhsBatch by decide), dif_pos (show (0 : Fin S512x1024.rank) ∈ dot_S512x1024_S1024x70_S512x70_1_0_0_1_n_n.lhsNonContracting by decide)]
  rfl
/-- … and at the contraction index as its column. -/
theorem lhs_pay4_1 (i : S512x70.Idx) (q : dot_S512x1024_S1024x70_S512x70_1_0_0_1_n_n.contr.Idx) :
    (dot_S512x1024_S1024x70_S512x70_1_0_0_1_n_n.lhsIdx i q 1).val = (q ⟨0, by decide⟩).val :=
  dot_S512x1024_S1024x70_S512x70_1_0_0_1_n_n.lhsIdx_val_of_single rfl i q
/-- The right operand is read at the contraction index as its row … -/
theorem rhs_pay4_0 (i : S512x70.Idx) (q : dot_S512x1024_S1024x70_S512x70_1_0_0_1_n_n.contr.Idx) :
    (dot_S512x1024_S1024x70_S512x70_1_0_0_1_n_n.rhsIdx i q 0).val = (q ⟨0, by decide⟩).val :=
  dot_S512x1024_S1024x70_S512x70_1_0_0_1_n_n.rhsIdx_val_of_single rfl i q
/-- … and at the result's column. -/
theorem rhs_pay4_1 (i : S512x70.Idx) (q : dot_S512x1024_S1024x70_S512x70_1_0_0_1_n_n.contr.Idx) :
    (dot_S512x1024_S1024x70_S512x70_1_0_0_1_n_n.rhsIdx i q 1).val = (i 1).val := by
  unfold DotDims.rhsIdx
  rw [dif_neg (show ¬(1 : Fin S1024x70.rank) ∈ dot_S512x1024_S1024x70_S512x70_1_0_0_1_n_n.rhsBatch by decide), dif_pos (show (1 : Fin S1024x70.rank) ∈ dot_S512x1024_S1024x70_S512x70_1_0_0_1_n_n.rhsNonContracting by decide)]
  rfl

/-- The product into the zero accumulator at entry (a, d): the sum over the 1024 contraction indices. -/
theorem matmul_pay4_apply (l : FVec Ideal S512x1024 .bf16) (r : FVec Ideal S1024x70 .bf16) (a : Fin 512) (d : Fin 70) :
    (matmul (F := Ideal) dot_S512x1024_S1024x70_S512x70_1_0_0_1_n_n none l r (constant (F := Ideal) S512x70 .f32 0x00000000#32) (ix2 a d) : EReal)
      = ∑ k : Fin 1024, (l (ix2 a k) : EReal) * (r (ix2 k d) : EReal) := by
  refine (Ideal.matmul_constant_zero_apply dot_S512x1024_S1024x70_S512x70_1_0_0_1_n_n none l r (ix2 a d)).trans ?_
  rw [← Equiv.sum_comp (contrEquiv1 dot_S512x1024_S1024x70_S512x70_1_0_0_1_n_n 1024 rfl rfl).symm]
  refine Finset.sum_congr rfl fun k _ => ?_
  have hk := contrEquiv1_symm_val dot_S512x1024_S1024x70_S512x70_1_0_0_1_n_n 1024 rfl rfl k
  have el : dot_S512x1024_S1024x70_S512x70_1_0_0_1_n_n.lhsIdx (ix2 a d) ((contrEquiv1 dot_S512x1024_S1024x70_S512x70_1_0_0_1_n_n 1024 rfl rfl).symm k) = ix2 a k := funext fun c => Fin.ext (by
    match c with
    | ⟨0, _⟩ => exact lhs_pay4_0 _ _
    | ⟨1, _⟩ => exact (lhs_pay4_1 _ _).trans hk)
  have er : dot_S512x1024_S1024x70_S512x70_1_0_0_1_n_n.rhsIdx (ix2 a d) ((contrEquiv1 dot_S512x1024_S1024x70_S512x70_1_0_0_1_n_n 1024 rfl rfl).symm k) = ix2 k d := funext fun c => Fin.ext (by
    match c with
    | ⟨0, _⟩ => exact (rhs_pay4_0 _ _).trans hk
    | ⟨1, _⟩ => exact rhs_pay4_1 _ _)
  rw [el, er]

/-- Entry (a, d) of the updated rows of the first output. -/
theorem pay4_apply (v9 : Vec Ideal S512x1024 .f32) (v16 : Vec Ideal S1024x70 .f32) (v22 : Vec Ideal S512x70 .f32)
    (a : Fin 512) (d : Fin 70) :
    (k0_pay4 (F := Ideal) v9 v16 v22 (ix2 a d) : EReal)
      = (v22 (ix2 a d) : EReal) + ∑ k : Fin 1024, (v9 (ix2 a k) : EReal) * (v16 (ix2 k d) : EReal) := by
  unfold Gen.k0_pay4 Gen.k0_pay3
  refine (addf_apply _ _ _).trans ?_
  refine congrArg₂ (· + ·) ?_ ?_
  · exact congrFun (shapeCast_self v22 shapeCasts_S512x70_S512x70) (ix2 a d)
  · refine (matmul_pay4_apply _ _ a d).trans ?_
    refine Finset.sum_congr rfl fun k _ => ?_
    refine congrArg₂ (· * ·) ?_ ?_
    · exact congrFun (shapeCast_self v9 shapeCasts_S512x1024_S512x1024) (ix2 a k)
    · exact congrFun (shapeCast_self v16 shapeCasts_S1024x70_S1024x70) (ix2 k d)

end Cert.KernelIdeal.Pay

end
-- ==== Proof.Pay5.lean ====
/-
  The body's arithmetic for the second output, read at an entry at the ideal instance (a float is an extended real,
  a change of float format is the identity, the matrix unit's product into a zero accumulator is the plain sum):
  the zero fill is 0 at every entry, and the updated rows are the old rows plus the TRANSPOSED adjacency block times
  the 512 feature rows (both operands contracted on their leading axis), entry (q, d) being
  old (q, d) + sum over k of block (k, q) * rows (k, d).
-/
import proofs.«138078_j76536317215120_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Pay

open Cert.KernelIdeal Cert.KernelIdeal.Gen Idealize.ShloMosaic Idealize.ShloMosaic.ValueIdx

/-- The zero fill of the second output is 0 at every entry. -/
theorem pay2_apply (y : S8192x70.Idx) : (k0_pay2 (F := Ideal) y : EReal) = 0 := by
  unfold Gen.k0_pay2
  exact Ideal.ofBits_zero_f32

/-! ## The operand indices of the product contracted on both leading axes

  For the dimension numbers "contract axis 0 of the left operand with axis 0 of the right one, keep axis 1 of each",
  at result entry `i` and contraction index `q` the left operand is read at (q, i 0) and the right one at (q, i 1).
  One lemma per operand axis. -/

/-- Left operand, axis 0: the contraction coordinate. -/
theorem lhs_dotT_0 (i : S1024x70.Idx) (q : dot_S512x1024_S512x70_S1024x70_0_0_1_1_n_n.contr.Idx) :
    (dot_S512x1024_S512x70_S1024x70_0_0_1_1_n_n.lhsIdx i q 0).val = (q ⟨0, by decide⟩).val :=
  dot_S512x1024_S512x70_S1024x70_0_0_1_1_n_n.lhsIdx_val_of_single rfl i q
/-- Left operand, axis 1: the result's row coordinate. -/
theorem lhs_dotT_1 (i : S1024x70.Idx) (q : dot_S512x1024_S512x70_S1024x70_0_0_1_1_n_n.contr.Idx) :
    (dot_S512x1024_S512x70_S1024x70_0_0_1_1_n_n.lhsIdx i q 1).val = (i 0).val := by
  unfold DotDims.lhsIdx
  rw [dif_neg (show ¬(1 : Fin S512x1024.rank) ∈ dot_S512x1024_S512x70_S1024x70_0_0_1_1_n_n.lhsBatch by decide), dif_pos (show (1 : Fin S512x1024.rank) ∈ dot_S512x1024_S512x70_S1024x70_0_0_1_1_n_n.lhsNonContracting by decide)]
  rfl
/-- Right operand, axis 0: the contraction coordinate. -/
theorem rhs_dotT_0 (i : S1024x70.Idx) (q : dot_S512x1024_S512x70_S1024x70_0_0_1_1_n_n.contr.Idx) :
    (dot_S512x1024_S512x70_S1024x70_0_0_1_1_n_n.rhsIdx i q 0).val = (q ⟨0, by decide⟩).val :=
  dot_S512x1024_S512x70_S1024x70_0_0_1_1_n_n.rhsIdx_val_of_single rfl i q
/-- Right operand, axis 1: the result's column coordinate. -/
theorem rhs_dotT_1 (i : S1024x70.Idx) (q : dot_S512x1024_S512x70_S1024x70_0_0_1_1_n_n.contr.Idx) :
    (dot_S512x1024_S512x70_S1024x70_0_0_1_1_n_n.rhsIdx i q 1).val = (i 1).val := by
  unfold DotDims.rhsIdx
  rw [dif_neg (show ¬(1 : Fin S512x70.rank) ∈ dot_S512x1024_S512x70_S1024x70_0_0_1_1_n_n.rhsBatch by decide), dif_pos (show (1 : Fin S512x70.rank) ∈ dot_S512x1024_S512x70_S1024x70_0_0_1_1_n_n.rhsNonContracting by decide)]
  rfl

/-- The product into the zero accumulator, read at entry (q, d): the sum over the 512 contracted rows of
    left (k, q) times right (k, d). -/
theorem dotT_apply (a : FVec Ideal S512x1024 .bf16) (b : FVec Ideal S512x70 .bf16) (q : Fin 1024) (d : Fin 70) :
    (matmul (F := Ideal) dot_S512x1024_S512x70_S1024x70_0_0_1_1_n_n none a b (constant (F := Ideal) S1024x70 .f32 0x00000000#32) (ix2 q d) : EReal)
      = ∑ k : Fin 512, (a (ix2 k q) : EReal) * (b (ix2 k d) : EReal) := by
  refine (Ideal.matmul_constant_zero_apply dot_S512x1024_S512x70_S1024x70_0_0_1_1_n_n none a b (ix2 q d)).trans ?_
  rw [← Equiv.sum_comp (ValueIdx.contrEquiv1 dot_S512x1024_S512x70_S1024x70_0_0_1_1_n_n 512 rfl rfl).symm]
  refine Finset.sum_congr rfl fun k _ => ?_
  have hk := ValueIdx.contrEquiv1_symm_val dot_S512x1024_S512x70_S1024x70_0_0_1_1_n_n 512 rfl rfl k
  have el : dot_S512x1024_S512x70_S1024x70_0_0_1_1_n_n.lhsIdx (ix2 q d) ((ValueIdx.contrEquiv1 dot_S512x1024_S512x70_S1024x70_0_0_1_1_n_n 512 rfl rfl).symm k) = ix2 k q := funext fun a => Fin.ext (by
    match a with
    | ⟨0, _⟩ => exact (lhs_dotT_0 _ _).trans hk
    | ⟨1, _⟩ => exact lhs_dotT_1 _ _)
  have er : dot_S512x1024_S512x70_S1024x70_0_0_1_1_n_n.rhsIdx (ix2 q d) ((ValueIdx.contrEquiv1 dot_S512x1024_S512x70_S1024x70_0_0_1_1_n_n 512 rfl rfl).symm k) = ix2 k d := funext fun a => Fin.ext (by
    match a with
    | ⟨0, _⟩ => exact (rhs_dotT_0 _ _).trans hk
    | ⟨1, _⟩ => exact rhs_dotT_1 _ _)
  rw [el, er]

/-- Entry (q, d) of the updated rows of the second output. -/
theorem pay5_apply (v9 : Vec Ideal S512x1024 .f32) (v13 : Vec Ideal S512x70 .f32) (v28 : Vec Ideal S1024x70 .f32)
    (q : Fin 1024) (d : Fin 70) :
    (k0_pay5 (F := Ideal) v9 v13 v28 (ix2 q d) : EReal)
      = (v28 (ix2 q d) : EReal) + ∑ k : Fin 512, (v9 (ix2 k q) : EReal) * (v13 (ix2 k d) : EReal) := by
  unfold Gen.k0_pay5 Gen.k0_pay3
  refine (addf_apply _ _ (ix2 q d)).trans ?_
  refine congrArg₂ (· + ·) ?_ ?_
  · exact congrFun (shapeCast_self v28 shapeCasts_S1024x70_S1024x70) (ix2 q d)
  · refine (dotT_apply _ _ q d).trans ?_
    refine Finset.sum_congr rfl fun k _ => ?_
    refine congrArg₂ (· * ·) ?_ rfl
    exact congrFun (shapeCast_self v9 shapeCasts_S512x1024_S512x1024) (ix2 k q)

end Cert.KernelIdeal.Pay

end
-- ==== Proof.Blocks.lean ====
/-
  The three input windows' blocks and the two output arrays after the run, read at an entry at the ideal instance.
  Grid point t of the row-major 8 x 8 walk has row block t / 8 and column block t % 8. The adjacency window's block
  at t is rows 512 * (t / 8) .. and columns 1024 * (t % 8) .. of the flattened adjacency; the feature windows' blocks
  are their whole arrays at every point. The output windows are the whole result arrays and are written back once,
  after point 63: each result array ends at its accumulator after that point.
-/
import proofs.«138078_j76536317215120_1_alg».proof.Proof.KIData
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The walk is row-major: point t is row block t / 8, column block t % 8. -/
theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The last point of the walk. -/
theorem last_lt : 63 < cfg0.N := by rw [show cfg0.N = 64 from N_0]; norm_num

/-! ## The printed index maps, decided over the 64 points -/

/-- The adjacency window's block index at point t is (t / 8, t % 8). -/
theorem index0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- The other four windows' block index is (0, 0) at every point. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## The input blocks: a block's coordinate is block index times block size plus the coordinate inside -/

/-- Entry (rr, cc) of the adjacency window's block at point t. -/
theorem iblk0_apply (c : Dev nD) (t : Fin cfg0.N) (rr : Fin 512) (cc : Fin 1024) :
    (iblk m c 0 t : S512x1024.Idx → EReal) (ix2 rr cc)
      = (V m c main_v0 : S4096x8192.Idx → EReal)
          (ix2 ⟨512 * (t.val / 8) + rr.val, by have := t.isLt; have h64 : cfg0.N = 64 := N_0; omega⟩
               ⟨1024 * (t.val % 8) + cc.val, by omega⟩) := by
  unfold iblk
  rw [View.read_apply]
  show V m c main_v0 (((cfg0.win 0).blk t).view.emb (ix2 rr cc)) = V m c main_v0 _
  refine congrArg _ ?_
  funext a; apply Fin.ext
  obtain ⟨e0, e1⟩ := index0 t
  match a with
  | ⟨0, _⟩ => show win0_0.index t (0 : Fin 2) * 512 + 1 * rr.val = 512 * (t.val / 8) + rr.val; omega
  | ⟨1, _⟩ => show win0_0.index t (1 : Fin 2) * 1024 + 1 * cc.val = 1024 * (t.val % 8) + cc.val; omega

/-- The features window's block is the whole features array at every point. -/
theorem iblk1_apply (c : Dev nD) (t : Fin cfg0.N) (y : S4096x70.Idx) :
    (iblk m c 1 t : S4096x70.Idx → EReal) y = (V m c main_arg1 : S4096x70.Idx → EReal) y := by
  unfold iblk
  rw [View.read_apply]
  show V m c main_arg1 (((cfg0.win 1).blk t).view.emb y) = V m c main_arg1 y
  refine congrArg _ ?_
  funext a; apply Fin.ext
  obtain ⟨e0, e1⟩ := index1 t
  match a with
  | ⟨0, _⟩ => show win0_1.index t (0 : Fin 2) * 4096 + 1 * (y 0).val = (y 0).val; omega
  | ⟨1, _⟩ => show win0_1.index t (1 : Fin 2) * 70 + 1 * (y 1).val = (y 1).val; omega

/-- The repeated-features window's block is the whole repeated-features array at every point. -/
theorem iblk2_apply (c : Dev nD) (t : Fin cfg0.N) (y : S8192x70.Idx) :
    (iblk m c 2 t : S8192x70.Idx → EReal) y = (V m c main_v2 : S8192x70.Idx → EReal) y := by
  unfold iblk
  rw [View.read_apply]
  show V m c main_v2 (((cfg0.win 2).blk t).view.emb y) = V m c main_v2 y
  refine congrArg _ ?_
  funext a; apply Fin.ext
  obtain ⟨e0, e1⟩ := index2 t
  match a with
  | ⟨0, _⟩ => show win0_2.index t (0 : Fin 2) * 8192 + 1 * (y 0).val = (y 0).val; omega
  | ⟨1, _⟩ => show win0_2.index t (1 : Fin 2) * 70 + 1 * (y 1).val = (y 1).val; omega

/-! ## The result windows: one write-back, of the whole array, after the last point -/

/-- A result window's block is its whole array: read off any contents G of the array it is G. -/
theorem read_blk3 (t : Fin cfg0.N) (G : S4096x70.Idx → EReal) :
    ((cfg0.win 3).blk t).view.read (Elt Ideal) G = G := by
  funext y
  rw [View.read_apply]
  show G (((cfg0.win 3).blk t).view.emb y) = G y
  refine congrArg _ ?_
  funext a; apply Fin.ext
  obtain ⟨e0, e1⟩ := index3 t
  match a with
  | ⟨0, _⟩ => show win0_3.index t (0 : Fin 2) * 4096 + 1 * (y 0).val = (y 0).val; omega
  | ⟨1, _⟩ => show win0_3.index t (1 : Fin 2) * 70 + 1 * (y 1).val = (y 1).val; omega

theorem read_blk4 (t : Fin cfg0.N) (G : S8192x70.Idx → EReal) :
    ((cfg0.win 4).blk t).view.read (Elt Ideal) G = G := by
  funext y
  rw [View.read_apply]
  show G (((cfg0.win 4).blk t).view.emb y) = G y
  refine congrArg _ ?_
  funext a; apply Fin.ext
  obtain ⟨e0, e1⟩ := index4 t
  match a with
  | ⟨0, _⟩ => show win0_4.index t (0 : Fin 2) * 8192 + 1 * (y 0).val = (y 0).val; omega
  | ⟨1, _⟩ => show win0_4.index t (1 : Fin 2) * 70 + 1 * (y 1).val = (y 1).val; omega

/-- An index of a result array is in point t's block iff each coordinate is in the block's range on its axis. -/
theorem mem_blk3 (t : Fin cfg0.N) (i : S4096x70.Idx) :
    i ∈ ((cfg0.win 3).blk t).view.set ↔ ∀ a : Fin 2, win0_3.index t a * S4096x70.size a ≤ (i a).val ∧ (i a).val < win0_3.index t a * S4096x70.size a + S4096x70.size a := by
  show i ∈ ((View.whole main_v3_0).slice (win0_3.rect t)).set ↔ _
  rw [View.set_slice_whole, Rect.mem_set_unit]
  exact Iff.rfl

theorem mem_blk4 (t : Fin cfg0.N) (i : S8192x70.Idx) :
    i ∈ ((cfg0.win 4).blk t).view.set ↔ ∀ a : Fin 2, win0_4.index t a * S8192x70.size a ≤ (i a).val ∧ (i a).val < win0_4.index t a * S8192x70.size a + S8192x70.size a := by
  show i ∈ ((View.whole main_v3_1).slice (win0_4.rect t)).set ↔ _
  rw [View.set_slice_whole, Rect.mem_set_unit]
  exact Iff.rfl

/-- The only point that writes a result window back is the last. -/
theorem flush_last (t : Fin cfg0.N) (h63 : t.val % 64 = 63) : t = ⟨63, last_lt⟩ := by
  have hlt : t.val < 64 := lt_of_lt_of_eq t.isLt (show cfg0.N = 64 from N_0)
  exact Fin.ext (by show t.val = 63; omega)

/-- The first result array after the run is its accumulator after the last point. -/
theorem final3 (c : Dev nD) (X : S4096x70.Idx → EReal) (hX : accOut (F := Ideal) m c 63 last_lt = X) :
    (dats (F := Ideal) m 0 c).arrAt 3 cfg0.N = X := by
  subst hX
  refine (dats (F := Ideal) m 0 c).arrAt_eq_of_cover 3 (accOut (F := Ideal) m c 63 last_lt) ?_ ?_
  · -- what the last point writes back is the accumulator it left, and the block read of it is itself
    intro t hf
    have ht : t = ⟨63, last_lt⟩ := flush_last t ((flush0_3 t).mp hf)
    subst ht
    show (cfg0.win 3).cut (grid0.coords ⟨63, last_lt⟩) ((dats m 0 c).after 3 ⟨63, last_lt⟩) = _
    rw [after0_3, read_blk3]
    rfl
  · -- every index of the array is in the last point's block
    intro i
    refine ⟨⟨63, last_lt⟩, (flush0_3 _).mpr rfl, ?_⟩
    rw [mem_blk3]
    obtain ⟨e0, e1⟩ := index3 ⟨63, last_lt⟩
    intro a
    match a with
    | ⟨0, _⟩ => show win0_3.index ⟨63, last_lt⟩ (0 : Fin 2) * 4096 ≤ (i 0).val ∧ (i 0).val < win0_3.index ⟨63, last_lt⟩ (0 : Fin 2) * 4096 + 4096; have hi : (i 0).val < 4096 := (i 0).isLt; omega
    | ⟨1, _⟩ => show win0_3.index ⟨63, last_lt⟩ (1 : Fin 2) * 70 ≤ (i 1).val ∧ (i 1).val < win0_3.index ⟨63, last_lt⟩ (1 : Fin 2) * 70 + 70; have hi : (i 1).val < 70 := (i 1).isLt; omega

/-- The second result array after the run is its accumulator after the last point. -/
theorem final4 (c : Dev nD) (X : S8192x70.Idx → EReal) (hX : accTmp (F := Ideal) m c 63 last_lt = X) :
    (dats (F := Ideal) m 0 c).arrAt 4 cfg0.N = X := by
  subst hX
  refine (dats (F := Ideal) m 0 c).arrAt_eq_of_cover 4 (accTmp (F := Ideal) m c 63 last_lt) ?_ ?_
  · intro t hf
    have ht : t = ⟨63, last_lt⟩ := flush_last t ((flush0_4 t).mp hf)
    subst ht
    show (cfg0.win 4).cut (grid0.coords ⟨63, last_lt⟩) ((dats m 0 c).after 4 ⟨63, last_lt⟩) = _
    rw [after0_4, read_blk4]
    rfl
  · intro i
    refine ⟨⟨63, last_lt⟩, (flush0_4 _).mpr rfl, ?_⟩
    rw [mem_blk4]
    obtain ⟨e0, e1⟩ := index4 ⟨63, last_lt⟩
    intro a
    match a with
    | ⟨0, _⟩ => show win0_4.index ⟨63, last_lt⟩ (0 : Fin 2) * 8192 ≤ (i 0).val ∧ (i 0).val < win0_4.index ⟨63, last_lt⟩ (0 : Fin 2) * 8192 + 8192; have hi : (i 0).val < 8192 := (i 0).isLt; omega
    | ⟨1, _⟩ => show win0_4.index ⟨63, last_lt⟩ (1 : Fin 2) * 70 ≤ (i 1).val ∧ (i 1).val < win0_4.index ⟨63, last_lt⟩ (1 : Fin 2) * 70 + 70; have hi : (i 1).val < 70 := (i 1).isLt; omega

end Cert.KernelIdeal.Blocks

end
-- ==== Proof.Spec.lean ====
/-
  The algebra that joins the two programs, with no program in sight.

  The kernel walks an 8 x 8 grid in row-major order, point p = 8 * ib + cb. Over the flattened adjacency
  AF (row i, column 2 * j + k) it adds at point p
    * to rows 512 * ib .. 512 * ib + 511 of the first result, the product of the (ib, cb) block of AF with rows
      1024 * cb .. of the twice-repeated features (outStep), and
    * to rows 1024 * cb .. of the second result, the product of the transposed block with rows 512 * ib .. of the
      features (tmpStep);
  rows outside the block receive nothing (the step is 0 there). After the 64 points each entry is the sum of its
  steps. The reference first sums the two channels of an adjacency entry and then contracts the node axis. For
  real entries the two agree: the sum over the 8192 flattened columns is the double sum over node and channel, and
  (a0 + a1) * s = a0 * s + a1 * s holds for reals (it fails on the extended reals at infinities, which is
  where the finiteness of the inputs is used).
-/
import Mathlib.Data.EReal.Operations
import Mathlib.Algebra.BigOperators.Fin
import Mathlib.Algebra.BigOperators.Intervals

noncomputable section

namespace Cert.Spec

open Finset

/-- The adjacency with its two trailing axes merged: column 2 * j + k holds entry (j, k). -/
def adjFlat (A : Fin 4096 → Fin 4096 → Fin 2 → EReal) (i : Fin 4096) (col : Fin 8192) : EReal :=
  A i ⟨col.val / 2, by omega⟩ ⟨col.val % 2, by omega⟩

/-- The features with every row written twice: row 2 * j + k holds row j. -/
def rep2 (S : Fin 4096 → Fin 70 → EReal) (col : Fin 8192) (d : Fin 70) : EReal :=
  S ⟨col.val / 2, by omega⟩ d

/-- What grid point p adds to entry (r, d) of the first result. -/
def outStep (AF : Fin 4096 → Fin 8192 → EReal) (SR : Fin 8192 → Fin 70 → EReal) (p : ℕ) (r : Fin 4096) (d : Fin 70) : EReal :=
  if r.val / 512 = p / 8 then
    ∑ cc : Fin 1024, AF r ⟨(p % 8) * 1024 + cc.val, by omega⟩ * SR ⟨(p % 8) * 1024 + cc.val, by omega⟩ d
  else 0

/-- What grid point p adds to entry (col, d) of the second result (before the two channels are summed). -/
def tmpStep (AF : Fin 4096 → Fin 8192 → EReal) (S : Fin 4096 → Fin 70 → EReal) (p : ℕ) (col : Fin 8192) (d : Fin 70) : EReal :=
  if col.val / 1024 = p % 8 then
    ∑ rr : Fin 512, AF ⟨(p / 8 % 8) * 512 + rr.val, by omega⟩ col * S ⟨(p / 8 % 8) * 512 + rr.val, by omega⟩ d
  else 0

/-- A sum over the first k * m naturals is a sum over k blocks of m. -/
theorem sum_range_mul_eq {M : Type*} [AddCommMonoid M] (G : ℕ → M) (m : ℕ) (k : ℕ) :
    ∑ n ∈ range (k * m), G n = ∑ a ∈ range k, ∑ b ∈ range m, G (a * m + b) := by
  induction k with
  | zero => simp
  | succ k ih => rw [Nat.succ_mul, Finset.sum_range_add, ih, Finset.sum_range_succ]

/-- Of the 64 grid points only the 8 with quotient q contribute. -/
theorem sum_range_64_div {M : Type*} [AddCommMonoid M] (q : ℕ) (hq : q < 8) (g : ℕ → M) :
    ∑ p ∈ range 64, (if q = p / 8 then g (p % 8) else 0) = ∑ cb ∈ range 8, g cb := by
  have h64 : (64 : ℕ) = 8 * 8 := rfl
  rw [h64, sum_range_mul_eq, Finset.sum_eq_single_of_mem q (mem_range.2 hq)]
  · apply sum_congr rfl
    intro b hb
    rw [mem_range] at hb
    rw [if_pos (by omega), show (q * 8 + b) % 8 = b by omega]
  · intro a _ hne
    apply sum_eq_zero
    intro b hb
    rw [mem_range] at hb
    rw [if_neg (by omega)]

/-- Of the 64 grid points only the 8 with remainder q contribute. -/
theorem sum_range_64_mod {M : Type*} [AddCommMonoid M] (q : ℕ) (hq : q < 8) (g : ℕ → M) :
    ∑ p ∈ range 64, (if q = p % 8 then g (p / 8 % 8) else 0) = ∑ ib ∈ range 8, g ib := by
  have h64 : (64 : ℕ) = 8 * 8 := rfl
  rw [h64, sum_range_mul_eq]
  apply sum_congr rfl
  intro a ha
  rw [mem_range] at ha
  rw [Finset.sum_eq_single_of_mem q (mem_range.2 hq)]
  · rw [if_pos (by omega), show (a * 8 + q) / 8 % 8 = a by omega]
  · intro b hb hne
    rw [mem_range] at hb
    rw [if_neg (by omega)]

/-- Distributivity holds for three finite values. -/
theorem coe_add_mul (x y z : ℝ) : ((x : EReal) + (y : EReal)) * (z : EReal) = (x : EReal) * z + (y : EReal) * z := by
  rw [← EReal.coe_add, ← EReal.coe_mul, ← EReal.coe_mul, ← EReal.coe_mul, ← EReal.coe_add, add_mul]

/-- An entry of the flattened product, read at column b * 2 + k. -/
theorem flat_entry (A : Fin 4096 → Fin 4096 → Fin 2 → EReal) (S : Fin 4096 → Fin 70 → EReal)
    (r : Fin 4096) (d : Fin 70) (b : ℕ) (hb : b < 4096) (k : ℕ) (hk : k < 2) (h : b * 2 + k < 8192) :
    adjFlat A r ⟨b * 2 + k, h⟩ * rep2 S ⟨b * 2 + k, h⟩ d = A r ⟨b, hb⟩ ⟨k, hk⟩ * S ⟨b, hb⟩ d := by
  have h1 : (b * 2 + k) / 2 = b := by omega
  have h2 : (b * 2 + k) % 2 = k := by omega
  simp only [adjFlat, rep2, h1, h2]

/-- The 64 steps of the first result add up to the reference's contraction over the target nodes. -/
theorem out_total (A : Fin 4096 → Fin 4096 → Fin 2 → EReal) (S : Fin 4096 → Fin 70 → EReal)
    (hA : ∀ i j k, ∃ x : ℝ, A i j k = (x : EReal)) (hS : ∀ i d, ∃ x : ℝ, S i d = (x : EReal))
    (r : Fin 4096) (d : Fin 70) :
    ∑ p ∈ range 64, outStep (adjFlat A) (rep2 S) p r d
      = ∑ b : Fin 4096, ((0 : EReal) + ∑ k : Fin 2, A r b k) * S b d := by
  -- the summand of the flattened contraction, extended by 0 beyond column 8191
  let G : ℕ → EReal := fun x => if h : x < 8192 then adjFlat A r ⟨x, h⟩ * rep2 S ⟨x, h⟩ d else 0
  have hG : ∀ (x : ℕ) (h : x < 8192), adjFlat A r ⟨x, h⟩ * rep2 S ⟨x, h⟩ d = G x :=
    fun x h => by simp only [G, dif_pos h]
  have hq : r.val / 512 < 8 := by omega
  have hstep : ∀ p, outStep (adjFlat A) (rep2 S) p r d
      = if r.val / 512 = p / 8 then (fun cb => ∑ c ∈ range 1024, G (cb * 1024 + c)) (p % 8) else 0 := by
    intro p
    simp only [outStep, hG]
    rw [Fin.sum_univ_eq_sum_range (fun c => G (p % 8 * 1024 + c)) 1024]
  simp only [hstep]
  have hpick := sum_range_64_div (r.val / 512) hq (fun cb => ∑ c ∈ range 1024, G (cb * 1024 + c))
  beta_reduce at hpick
  rw [hpick, ← sum_range_mul_eq G 1024 8,
    show (8 * 1024 : ℕ) = 4096 * 2 from rfl, sum_range_mul_eq G 2 4096, Finset.sum_fin_eq_sum_range]
  apply sum_congr rfl
  intro b hb
  rw [mem_range] at hb
  obtain ⟨x0, hx0⟩ := hA r ⟨b, hb⟩ 0
  obtain ⟨x1, hx1⟩ := hA r ⟨b, hb⟩ 1
  obtain ⟨y, hy⟩ := hS ⟨b, hb⟩ d
  rw [dif_pos hb, Fin.sum_univ_two, zero_add, hx0, hx1, hy, coe_add_mul, ← hx0, ← hx1, ← hy,
    Finset.sum_range_succ, Finset.sum_range_succ, Finset.sum_range_zero, zero_add,
    ← hG (b * 2 + 0) (by omega), ← hG (b * 2 + 1) (by omega),
    flat_entry A S r d b hb 0 (by omega), flat_entry A S r d b hb 1 (by omega)]
  rfl

/-- An entry of the flattened adjacency, read at column 2 * j + k. -/
theorem adjFlat_entry (A : Fin 4096 → Fin 4096 → Fin 2 → EReal) (a j : Fin 4096) (k : Fin 2)
    (h : 2 * j.val + k.val < 8192) : adjFlat A a ⟨2 * j.val + k.val, h⟩ = A a j k := by
  have h1 : (2 * j.val + k.val) / 2 = j.val := by omega
  have h2 : (2 * j.val + k.val) % 2 = k.val := by omega
  simp only [adjFlat, h1, h2, Fin.eta]

/-- For one column of the flattened adjacency, the 64 steps of the second result add up to the contraction
    over all 4096 rows. -/
theorem tmp_col_total (A : Fin 4096 → Fin 4096 → Fin 2 → EReal) (S : Fin 4096 → Fin 70 → EReal)
    (col : Fin 8192) (d : Fin 70) :
    ∑ p ∈ range 64, tmpStep (adjFlat A) S p col d = ∑ a : Fin 4096, adjFlat A a col * S a d := by
  -- the summand of the contraction over rows, extended by 0 beyond row 4095
  let H : ℕ → EReal := fun x => if h : x < 4096 then adjFlat A ⟨x, h⟩ col * S ⟨x, h⟩ d else 0
  have hH : ∀ (x : ℕ) (h : x < 4096), adjFlat A ⟨x, h⟩ col * S ⟨x, h⟩ d = H x :=
    fun x h => by simp only [H, dif_pos h]
  have hq : col.val / 1024 < 8 := by omega
  have hstep : ∀ p, tmpStep (adjFlat A) S p col d
      = if col.val / 1024 = p % 8 then (fun ib => ∑ c ∈ range 512, H (ib * 512 + c)) (p / 8 % 8) else 0 := by
    intro p
    simp only [tmpStep, hH]
    rw [Fin.sum_univ_eq_sum_range (fun c => H (p / 8 % 8 * 512 + c)) 512]
  simp only [hstep]
  have hpick := sum_range_64_mod (col.val / 1024) hq (fun ib => ∑ c ∈ range 512, H (ib * 512 + c))
  beta_reduce at hpick
  rw [hpick, ← sum_range_mul_eq H 512 8, show (8 * 512 : ℕ) = 4096 from rfl, Finset.sum_fin_eq_sum_range]

/-- The 64 steps of the second result, its two channel rows summed, add up to the reference's contraction over the
    source nodes. -/
theorem in_total (A : Fin 4096 → Fin 4096 → Fin 2 → EReal) (S : Fin 4096 → Fin 70 → EReal)
    (hA : ∀ i j k, ∃ x : ℝ, A i j k = (x : EReal)) (hS : ∀ i d, ∃ x : ℝ, S i d = (x : EReal))
    (j : Fin 4096) (d : Fin 70) :
    (0 : EReal) + ∑ k : Fin 2, ∑ p ∈ range 64, tmpStep (adjFlat A) S p ⟨2 * j.val + k.val, by omega⟩ d
      = ∑ a : Fin 4096, ((0 : EReal) + ∑ k : Fin 2, A a j k) * S a d := by
  simp only [tmp_col_total, adjFlat_entry]
  rw [zero_add, Finset.sum_comm]
  apply sum_congr rfl
  intro a _
  obtain ⟨x0, hx0⟩ := hA a j 0
  obtain ⟨x1, hx1⟩ := hA a j 1
  obtain ⟨y, hy⟩ := hS a d
  rw [Fin.sum_univ_two, Fin.sum_univ_two, zero_add, hx0, hx1, hy, coe_add_mul]

end Cert.Spec

end
-- ==== Proof.Acc.lean ====
/-
  The accumulators, read at an entry at the ideal instance.

  One point's update of the first output buffer adds, on the 512 rows of the point's row block, the product of the
  adjacency block with the 1024 repeated-feature rows of the point's column block, and leaves the other rows alone:
  at every entry it is the previous value plus the point's step of the specification (which is 0 off the block).
  Likewise for the second buffer with the transposed block and the 512 feature rows. So after point n of the walk an
  entry is the sum of the steps of points 0 .. n (addition on the extended reals is commutative and associative,
  so the order in which the kernel met the blocks does not matter), the first point starting from the zero fill.
-/
import proofs.«138078_j76536317215120_1_alg».proof.Proof.KIData
import proofs.«138078_j76536317215120_1_alg».proof.Proof.Pay4
import proofs.«138078_j76536317215120_1_alg».proof.Proof.Pay5
import proofs.«138078_j76536317215120_1_alg».proof.Proof.Blocks
import proofs.«138078_j76536317215120_1_alg».proof.Proof.Spec
import Idealize.ShloMosaic.Lib.ValueIdx
import Idealize.ShloMosaic.Lib.ValueIdxCoords
import Idealize.ShloMosaic.Lib.Pipeline.Value

set_option maxRecDepth 16384

noncomputable section

namespace Cert.KernelIdeal.Acc

open Cert.KernelIdeal Cert.KernelIdeal.Gen Cert.KernelIdeal.Body Cert.KernelIdeal.Blocks Cert.KernelIdeal.Pay
open Idealize.ShloMosaic Idealize.ShloMosaic.TcCoe Idealize.SL.Sem Idealize.ShloMosaic.ValueIdx

variable (m : (ℓ : Loc nD τ sig) → Buf (Elt Ideal) ℓ)

/-! ## The arrays the region finds, by coordinates -/

/-- The flattened adjacency. -/
def AF (c : Dev nD) (i : Fin 4096) (col : Fin 8192) : EReal := (V m c main_v0 : S4096x8192.Idx → EReal) (ix2 i col)
/-- The repeated features. -/
def SR (c : Dev nD) (col : Fin 8192) (d : Fin 70) : EReal := (V m c main_v2 : S8192x70.Idx → EReal) (ix2 col d)
/-- The features. -/
def S1 (c : Dev nD) (i : Fin 4096) (d : Fin 70) : EReal := (V m c main_arg1 : S4096x70.Idx → EReal) (ix2 i d)

/-! ## Where a load through the point's rows lands -/

theorem idx_rows1 (i : grid0.Coords) (a : Fin 512) (d : Fin 70) (r : Fin 4096) (hr : r.val = 512 * (i 0).val + a.val) :
    (Rect.unit (s := S4096x70) (k0_off1 i) S512x70.size (k0_off1_inb i)).idx (ix2 a d) = ix2 r d := by
  funext b; apply Fin.ext
  have e := k0_off1_eq i
  match b with
  | ⟨0, _⟩ => show (k0_off1 i) 0 + 1 * a.val = r.val; rw [e]; show 512 * (i 0).val + 1 * a.val = r.val; omega
  | ⟨1, _⟩ => show (k0_off1 i) 1 + 1 * d.val = d.val; rw [e]; show 0 + 1 * d.val = d.val; omega

theorem idx_rows2 (i : grid0.Coords) (a : Fin 1024) (d : Fin 70) (q : Fin 8192) (hq : q.val = 1024 * (i 1).val + a.val) :
    (Rect.unit (s := S8192x70) (k0_off2 i) S1024x70.size (k0_off2_inb i)).idx (ix2 a d) = ix2 q d := by
  funext b; apply Fin.ext
  have e := k0_off2_eq i
  match b with
  | ⟨0, _⟩ => show (k0_off2 i) 0 + 1 * a.val = q.val; rw [e]; show 1024 * (i 1).val + 1 * a.val = q.val; omega
  | ⟨1, _⟩ => show (k0_off2 i) 1 + 1 * d.val = d.val; rw [e]; show 0 + 1 * d.val = d.val; omega

/-! ## One point's update at an entry -/

/-- Entry (r, d) of the first buffer after a point at coordinates i: on the point's rows the old entry plus the row of
    the adjacency block times the column of the repeated-feature rows, elsewhere the old entry. -/
theorem stepOut_apply (i : grid0.Coords) (h0 : (i 0).val < 8) (h1 : (i 1).val < 8)
    (x0 : Vec Ideal S512x1024 .f32) (x2 : Vec Ideal S8192x70 .f32) (prev : Vec Ideal S4096x70 .f32) (r : Fin 4096) (d : Fin 70) :
    (stepOut (F := Ideal) i x0 x2 prev (ix2 r d) : EReal)
      = if h : 512 * (i 0).val ≤ r.val ∧ r.val < 512 * (i 0).val + 512 then
          (prev (ix2 r d) : EReal) + ∑ k : Fin 1024, (x0 (ix2 ⟨r.val - 512 * (i 0).val, by omega⟩ k) : EReal)
            * (x2 (ix2 ⟨1024 * (i 1).val + k.val, by omega⟩ d) : EReal)
        else (prev (ix2 r d) : EReal) := by
  unfold stepOut
  dsimp only [ix2_0]
  by_cases h : 512 * (i 0).val ≤ r.val ∧ r.val < 512 * (i 0).val + 512
  · rw [dif_pos h, dif_pos h]
    have e : Rect.unitLocal (s := S4096x70) (off := ![512 * (i 0).val, 0]) (size := S512x70.size) (ix2 r d) (Rect.unit_rows_mem (ix2 r d) rfl rfl h)
        = (ix2 ⟨r.val - 512 * (i 0).val, by omega⟩ d : S512x70.Idx) :=
      funext fun a => Fin.ext (by match a with | ⟨0, _⟩ => rfl | ⟨1, _⟩ => rfl)
    rw [e]
    refine (pay4_apply x0 _ _ ⟨r.val - 512 * (i 0).val, by omega⟩ d).trans ?_
    show (prev ((Rect.unit (s := S4096x70) (k0_off1 i) S512x70.size (k0_off1_inb i)).idx (ix2 ⟨r.val - 512 * (i 0).val, by omega⟩ d)) : EReal)
        + ∑ k : Fin 1024, (x0 (ix2 ⟨r.val - 512 * (i 0).val, by omega⟩ k) : EReal)
            * (x2 ((Rect.unit (s := S8192x70) (k0_off2 i) S1024x70.size (k0_off2_inb i)).idx (ix2 k d)) : EReal) = _
    rw [idx_rows1 i _ d r (by show r.val = 512 * (i 0).val + (r.val - 512 * (i 0).val); omega)]
    refine congrArg _ (Finset.sum_congr rfl fun k _ => ?_)
    rw [idx_rows2 i k d ⟨1024 * (i 1).val + k.val, by omega⟩ rfl]
  · rw [dif_neg h, dif_neg h]

/-- Entry (q, d) of the second buffer after a point at coordinates i: on the point's rows the old entry plus the column
    of the adjacency block times the column of the feature rows, elsewhere the old entry. -/
theorem stepTmp_apply (i : grid0.Coords) (h0 : (i 0).val < 8) (h1 : (i 1).val < 8)
    (x0 : Vec Ideal S512x1024 .f32) (x1 : Vec Ideal S4096x70 .f32) (prev : Vec Ideal S8192x70 .f32) (q : Fin 8192) (d : Fin 70) :
    (stepTmp (F := Ideal) i x0 x1 prev (ix2 q d) : EReal)
      = if h : 1024 * (i 1).val ≤ q.val ∧ q.val < 1024 * (i 1).val + 1024 then
          (prev (ix2 q d) : EReal) + ∑ k : Fin 512, (x0 (ix2 k ⟨q.val - 1024 * (i 1).val, by omega⟩) : EReal)
            * (x1 (ix2 ⟨512 * (i 0).val + k.val, by omega⟩ d) : EReal)
        else (prev (ix2 q d) : EReal) := by
  unfold stepTmp
  dsimp only [ix2_0]
  by_cases h : 1024 * (i 1).val ≤ q.val ∧ q.val < 1024 * (i 1).val + 1024
  · rw [dif_pos h, dif_pos h]
    have e : Rect.unitLocal (s := S8192x70) (off := ![1024 * (i 1).val, 0]) (size := S1024x70.size) (ix2 q d) (Rect.unit_rows_mem (ix2 q d) rfl rfl h)
        = (ix2 ⟨q.val - 1024 * (i 1).val, by omega⟩ d : S1024x70.Idx) :=
      funext fun a => Fin.ext (by match a with | ⟨0, _⟩ => rfl | ⟨1, _⟩ => rfl)
    rw [e]
    refine (pay5_apply x0 _ _ ⟨q.val - 1024 * (i 1).val, by omega⟩ d).trans ?_
    show (prev ((Rect.unit (s := S8192x70) (k0_off2 i) S1024x70.size (k0_off2_inb i)).idx (ix2 ⟨q.val - 1024 * (i 1).val, by omega⟩ d)) : EReal)
        + ∑ k : Fin 512, (x0 (ix2 k ⟨q.val - 1024 * (i 1).val, by omega⟩) : EReal)
            * (x1 ((Rect.unit (s := S4096x70) (k0_off1 i) S512x70.size (k0_off1_inb i)).idx (ix2 k d)) : EReal) = _
    rw [idx_rows2 i _ d q (by show q.val = 1024 * (i 1).val + (q.val - 1024 * (i 1).val); omega)]
    refine congrArg _ (Finset.sum_congr rfl fun k _ => ?_)
    rw [idx_rows1 i k d ⟨512 * (i 0).val + k.val, by omega⟩ rfl]
  · rw [dif_neg h, dif_neg h]

/-! ## The blocks at a point, by coordinates -/

theorem iblk0_at (c : Dev nD) (t : Fin cfg0.N) (rr : Fin 512) (cc : Fin 1024) (R : Fin 4096) (C : Fin 8192)
    (hR : R.val = 512 * (t.val / 8) + rr.val) (hC : C.val = 1024 * (t.val % 8) + cc.val) :
    (iblk m c 0 t : S512x1024.Idx → EReal) (ix2 rr cc) = AF m c R C := by
  rw [iblk0_apply]; unfold AF
  exact congrArg _ (congrArg₂ ix2 (Fin.ext hR.symm) (Fin.ext hC.symm))

/-! ## One point's update is the specification's step -/

theorem step_out (c : Dev nD) (t : Fin cfg0.N) (prev : Vec Ideal S4096x70 .f32) (r : Fin 4096) (d : Fin 70) :
    (stepOut (F := Ideal) (grid0.coords t) (iblk m c 0 t) (iblk m c 2 t) prev (ix2 r d) : EReal)
      = (prev (ix2 r d) : EReal) + Spec.outStep (AF m c) (SR m c) t.val r d := by
  obtain ⟨e0, e1⟩ := coords_eq t
  have hN : t.val < 64 := lt_of_lt_of_eq t.isLt (show cfg0.N = 64 from N_0)
  rw [stepOut_apply (grid0.coords t) (by omega) (by omega) (iblk m c 0 t) (iblk m c 2 t) prev r d]
  unfold Spec.outStep
  by_cases h : 512 * ((grid0.coords t) 0).val ≤ r.val ∧ r.val < 512 * ((grid0.coords t) 0).val + 512
  · rw [dif_pos h, if_pos (by omega)]
    refine congrArg _ (Finset.sum_congr rfl fun k _ => ?_)
    rw [iblk0_at m c t _ k r ⟨(t.val % 8) * 1024 + k.val, by omega⟩ (by show r.val = 512 * (t.val / 8) + (r.val - 512 * ((grid0.coords t) 0).val); omega)
        (by show (t.val % 8) * 1024 + k.val = 1024 * (t.val % 8) + k.val; omega),
      iblk2_apply]
    unfold SR
    exact congrArg _ (congrArg _ (congrArg₂ ix2 (Fin.ext (by show 1024 * ((grid0.coords t) 1).val + k.val = (t.val % 8) * 1024 + k.val; omega)) rfl))
  · rw [dif_neg h, if_neg (by omega), add_zero]

theorem step_tmp (c : Dev nD) (t : Fin cfg0.N) (prev : Vec Ideal S8192x70 .f32) (q : Fin 8192) (d : Fin 70) :
    (stepTmp (F := Ideal) (grid0.coords t) (iblk m c 0 t) (iblk m c 1 t) prev (ix2 q d) : EReal)
      = (prev (ix2 q d) : EReal) + Spec.tmpStep (AF m c) (S1 m c) t.val q d := by
  obtain ⟨e0, e1⟩ := coords_eq t
  have hN : t.val < 64 := lt_of_lt_of_eq t.isLt (show cfg0.N = 64 from N_0)
  rw [stepTmp_apply (grid0.coords t) (by omega) (by omega) (iblk m c 0 t) (iblk m c 1 t) prev q d]
  unfold Spec.tmpStep
  by_cases h : 1024 * ((grid0.coords t) 1).val ≤ q.val ∧ q.val < 1024 * ((grid0.coords t) 1).val + 1024
  · rw [dif_pos h, if_pos (by omega)]
    refine congrArg _ (Finset.sum_congr rfl fun k _ => ?_)
    rw [iblk0_at m c t k _ ⟨(t.val / 8 % 8) * 512 + k.val, by omega⟩ q (by show (t.val / 8 % 8) * 512 + k.val = 512 * (t.val / 8) + k.val; omega)
        (by show q.val = 1024 * (t.val % 8) + (q.val - 1024 * ((grid0.coords t) 1).val); omega),
      iblk1_apply]
    unfold S1
    exact congrArg _ (congrArg _ (congrArg₂ ix2 (Fin.ext (by show 512 * ((grid0.coords t) 0).val + k.val = (t.val / 8 % 8) * 512 + k.val; omega)) rfl))
  · rw [dif_neg h, if_neg (by omega), add_zero]

/-! ## The accumulators are the sums of the steps so far -/

theorem inv_out (c : Dev nD) : ∀ (n : ℕ) (hn : n < cfg0.N) (r : Fin 4096) (d : Fin 70),
    (accOut (F := Ideal) m c n hn (ix2 r d) : EReal) = ∑ p ∈ Finset.range (n + 1), Spec.outStep (AF m c) (SR m c) p r d
  | 0, hn, r, d => by
    show (stepOut (F := Ideal) (grid0.coords ⟨0, hn⟩) (iblk m c 0 ⟨0, hn⟩) (iblk m c 2 ⟨0, hn⟩) (k0_pay1 (F := Ideal)) (ix2 r d) : EReal) = _
    rw [step_out m c ⟨0, hn⟩ _ r d, pay1_apply, zero_add, Finset.sum_range_one]
  | n + 1, hn, r, d => by
    show (stepOut (F := Ideal) (grid0.coords ⟨n + 1, hn⟩) (iblk m c 0 ⟨n + 1, hn⟩) (iblk m c 2 ⟨n + 1, hn⟩)
      (accOut (F := Ideal) m c n (Nat.lt_of_succ_lt hn)) (ix2 r d) : EReal) = _
    rw [step_out m c ⟨n + 1, hn⟩ _ r d, inv_out c n (Nat.lt_of_succ_lt hn) r d, Finset.sum_range_succ _ (n + 1)]

theorem inv_tmp (c : Dev nD) : ∀ (n : ℕ) (hn : n < cfg0.N) (q : Fin 8192) (d : Fin 70),
    (accTmp (F := Ideal) m c n hn (ix2 q d) : EReal) = ∑ p ∈ Finset.range (n + 1), Spec.tmpStep (AF m c) (S1 m c) p q d
  | 0, hn, q, d => by
    show (stepTmp (F := Ideal) (grid0.coords ⟨0, hn⟩) (iblk m c 0 ⟨0, hn⟩) (iblk m c 1 ⟨0, hn⟩) (k0_pay2 (F := Ideal)) (ix2 q d) : EReal) = _
    rw [step_tmp m c ⟨0, hn⟩ _ q d, pay2_apply, zero_add, Finset.sum_range_one]
  | n + 1, hn, q, d => by
    show (stepTmp (F := Ideal) (grid0.coords ⟨n + 1, hn⟩) (iblk m c 0 ⟨n + 1, hn⟩) (iblk m c 1 ⟨n + 1, hn⟩)
      (accTmp (F := Ideal) m c n (Nat.lt_of_succ_lt hn)) (ix2 q d) : EReal) = _
    rw [step_tmp m c ⟨n + 1, hn⟩ _ q d, inv_tmp c n (Nat.lt_of_succ_lt hn) q d, Finset.sum_range_succ _ (n + 1)]

end Cert.KernelIdeal.Acc

end
-- ==== Proof.HostSide.lean ====
/-
  The host operations around the kernel region, read at an index.
  Before the region: the adjacency [4096, 4096, 2] is reshaped to [4096, 8192] (column 2 * j + k is entry (j, k)),
  and the features [4096, 70] are broadcast to [4096, 2, 70] and reshaped to [8192, 70] (row 2 * j + k is row j).
  After the region: the second output array [8192, 70] is reshaped to [4096, 2, 70] and summed over its middle
  axis from 0, so entry (j, d) of that result is 0 plus rows 2 * j and 2 * j + 1 of the array at column d; the
  first output array is a result as it stands.
-/
import proofs.«138078_j76536317215120_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The flattened adjacency the region finds is the adjacency recast from [4096, 4096, 2] to [4096, 8192]. -/
theorem v0_term (c : Dev nD) :
    (V m c main_v0 : S4096x8192.Idx → EReal)
      = shapeCast S4096x8192 (m ((c : Thread nD τ).loc main_arg0) : S4096x4096x2.Idx → EReal)
          shapeCasts_S4096x4096x2_S4096x8192 := by
  show StableHlo.after hostOps0 (fun b => m (c, b)) (Proc.devRef .tc main_v0) = _
  after_results
  rfl

/-- The flattened adjacency the region finds: entry (i, col) is the adjacency at (i, col / 2, col % 2). -/
theorem v0_apply (c : Dev nD) (i : Fin 4096) (col : Fin 8192) :
    (V m c main_v0 : S4096x8192.Idx → EReal) (ix2 i col)
      = (m ((c : Thread nD τ).loc main_arg0) : S4096x4096x2.Idx → EReal) (ix3 i ⟨col.val / 2, by omega⟩ ⟨col.val % 2, by omega⟩) := by
  rw [v0_term]
  -- a recast keeps the row-major position: (i * 4096 + col / 2) * 2 + col % 2 = i * 8192 + col
  refine shapeCast_apply (s := S4096x4096x2) (t := S4096x8192) _ _ _ _ ?_
  rw [Shape.rowMajor_val_three, Shape.rowMajor_val_two]
  show (i.val * 4096 + col.val / 2) * 2 + col.val % 2 = i.val * 8192 + col.val
  omega

/-- The repeated features the region finds are the features broadcast along a new middle axis of length 2,
    [4096, 70] to [4096, 2, 70], then recast to [8192, 70]. -/
theorem v2_term (c : Dev nD) :
    (V m c main_v2 : S8192x70.Idx → EReal)
      = shapeCast S8192x70
          (broadcastInDim S4096x2x70 ![0, 2] bcast_S4096x70_S4096x2x70_0_2
            (m ((c : Thread nD τ).loc main_arg1) : S4096x70.Idx → EReal))
          shapeCasts_S4096x2x70_S8192x70 := by
  show StableHlo.after hostOps0 (fun b => m (c, b)) (Proc.devRef .tc main_v2) = _
  after_results
  rfl

/-- The repeated features the region finds: entry (col, d) is the features at (col / 2, d). -/
theorem v2_apply (c : Dev nD) (col : Fin 8192) (d : Fin 70) :
    (V m c main_v2 : S8192x70.Idx → EReal) (ix2 col d)
      = (m ((c : Thread nD τ).loc main_arg1) : S4096x70.Idx → EReal) (ix2 ⟨col.val / 2, by omega⟩ d) := by
  rw [v2_term]
  -- the recast: (col / 2 * 2 + col % 2) * 70 + d = col * 70 + d, so row col is entry (col / 2, col % 2) of the broadcast
  rw [shapeCast_apply (s := S4096x2x70) (t := S8192x70) _ _ (ix2 col d)
    (ix3 ⟨col.val / 2, by omega⟩ ⟨col.val % 2, by omega⟩ d) (by
      rw [Shape.rowMajor_val_three, Shape.rowMajor_val_two]
      show (col.val / 2 * 2 + col.val % 2) * 70 + d.val = col.val * 70 + d.val
      omega)]
  -- the broadcast forgets the middle coordinate: source axes 0 and 1 are result axes 0 and 2, neither of length 1
  refine broadcastInDim_apply (s := S4096x70) (t := S4096x2x70) _ _ _ _ _ ?_
  intro a
  match a with
  | ⟨0, _⟩ => rfl
  | ⟨1, _⟩ => rfl

/-- After the region's host lines the first output array is a result unchanged. -/
theorem tail_v3_0 (dats : (p : Fin 1) → (c : Dev nD) → Dat τ (Elt Ideal) Unit ℕ (UR sig nD τ) ℕ (cfgs p) c) (c : Dev nD) :
    Pipeline.afterTail₀ cfgs dats 0 (V0 m) [hostOps1] c main_v3_0 = (dats 0 c).arrAt 3 cfg0.N := by
  unfold Pipeline.afterTail₀
  -- none of the three later lines writes this array, and it is the region's fourth array (index 3)
  show StableHlo.after hostOps1 _ (Proc.devRef .tc main_v3_0) = _
  after_results
  exact Pipeline.withArrays_arr spec0 launch0.win.arr_inj c _ _ 3

/-- After the region's host lines the channel-summed result is the sum, over the middle axis and from the constant 0,
    of the region's fifth array (index 4) recast from [8192, 70] to [4096, 2, 70]. -/
theorem v5_term (dats : (p : Fin 1) → (c : Dev nD) → Dat τ (Elt Ideal) Unit ℕ (UR sig nD τ) ℕ (cfgs p) c) (c : Dev nD) :
    (Pipeline.afterTail₀ cfgs dats 0 (V0 m) [hostOps1] c main_v5 : S4096x70.Idx → EReal)
      = Host.reduceAdd (F := Ideal)
          (shapeCast S4096x2x70 ((dats 0 c).arrAt 4 cfg0.N : S8192x70.Idx → EReal) shapeCasts_S8192x70_S4096x2x70)
          (constant (F := Ideal) S_ .f32 0x00000000#32) reducesTo_S4096x2x70_S4096x70_d1 h_S_ := by
  unfold Pipeline.afterTail₀
  show StableHlo.after hostOps1 _ (Proc.devRef .tc main_v5) = _
  after_results
  have e := Pipeline.withArrays_arr spec0 launch0.win.arr_inj c (V0 m c) (fun w => (dats 0 c).arrAt w (cfgs 0).N) 4
  rw [show Pipeline.withArrays (cfgs 0).spec c (V0 m c) (fun w => (dats 0 c).arrAt w (cfgs 0).N)
      (Proc.devRef .tc main_v3_1) = (dats 0 c).arrAt 4 (cfgs 0).N from e]
  rfl

/-- After the region's host lines entry (j, d) of the channel-summed result is 0 plus rows 2 * j and 2 * j + 1 of
    the second output array (named X here) at column d. -/
theorem tail_v5 (dats : (p : Fin 1) → (c : Dev nD) → Dat τ (Elt Ideal) Unit ℕ (UR sig nD τ) ℕ (cfgs p) c) (c : Dev nD)
    (X : S8192x70.Idx → EReal) (hX : (dats 0 c).arrAt 4 cfg0.N = X) (j : Fin 4096) (d : Fin 70) :
    (Pipeline.afterTail₀ cfgs dats 0 (V0 m) [hostOps1] c main_v5 : S4096x70.Idx → EReal) (ix2 j d)
      = (0 : EReal) + ∑ k : Fin 2, X (ix2 ⟨2 * j.val + k.val, by omega⟩ d) := by
  rw [v5_term, hX]
  -- a sum over one axis is the initial value plus the sum over that axis's coordinates
  simp only [Host.reduceAdd, Ideal.hostReduceAdd_def]
  rw [Ideal.hostReduceAdd_single reducesTo_S4096x2x70_S4096x70_d1 (by decide)]
  -- the initial value is the all-zero word, the real 0
  have h0 : (constant (F := Ideal) S_ .f32 0x00000000#32) (Shape.Idx.first h_S_) = (0 : EReal) := Ideal.ofBits_zero_f32
  rw [h0]
  refine congrArg (_ + ·) (Finset.sum_congr rfl fun k _ => ?_)
  -- the recast: (2 * j + k) * 70 + d = (j * 2 + k) * 70 + d, so entry (j, k, d) is row 2 * j + k at column d
  refine shapeCast_apply (s := S8192x70) (t := S4096x2x70) _ _ _ _ ?_
  rw [Shape.rowMajor_val_three, Shape.rowMajor_val_two]
  show (2 * j.val + k.val) * 70 + d.val = (j.val * 2 + k.val) * 70 + d.val
  omega

end Cert.KernelIdeal.HostSide

end
-- ==== Proof.Results.lean ====
/-
  The idealized kernel's two results at an entry, for real-valued inputs.

  The flattened adjacency the region finds is the specification's adjFlat of the adjacency argument, the repeated
  features its rep2 of the features argument. The first result array is the first accumulator after the last
  point, so entry (i, d) is the sum of the 64 steps, which for real entries is the reference's contraction over the
  target nodes. The channel-summed result is 0 plus rows 2 * j and 2 * j + 1 of the second accumulator after the
  last point, which for real entries is the reference's contraction over the source nodes.
-/
import proofs.«138078_j76536317215120_1_alg».proof.Proof.Acc
import proofs.«138078_j76536317215120_1_alg».proof.Proof.HostSide

set_option maxRecDepth 16384

noncomputable section

namespace Cert.KernelIdeal.Results

open Cert.KernelIdeal Cert.KernelIdeal.Gen Cert.KernelIdeal.Body Cert.KernelIdeal.Blocks Cert.KernelIdeal.Acc
open Idealize.ShloMosaic Idealize.ShloMosaic.TcCoe Idealize.SL.Sem Idealize.ShloMosaic.ValueIdx

variable (m : (ℓ : Loc nD τ sig) → Buf (Elt Ideal) ℓ)

/-- The adjacency argument by coordinates. -/
def A0 (c : Dev nD) (i j : Fin 4096) (k : Fin 2) : EReal :=
  (m ((c : Thread nD τ).loc main_arg0) : S4096x4096x2.Idx → EReal) (ix3 i j k)
/-- The features argument by coordinates. -/
def F0 (c : Dev nD) (i : Fin 4096) (d : Fin 70) : EReal :=
  (m ((c : Thread nD τ).loc main_arg1) : S4096x70.Idx → EReal) (ix2 i d)

theorem AF_eq (c : Dev nD) : AF m c = Spec.adjFlat (A0 m c) := by
  funext i col; unfold AF Spec.adjFlat A0; exact HostSide.v0_apply m c i col

theorem SR_eq (c : Dev nD) : SR m c = Spec.rep2 (F0 m c) := by
  funext col d; unfold SR Spec.rep2 F0; exact HostSide.v2_apply m c col d

theorem S1_eq (c : Dev nD) : S1 m c = F0 m c := by
  funext i d; unfold S1 F0; rw [V_main_arg1]

/-- Entry (i, d) of the first result array after the run. -/
theorem out_value (c : Dev nD) (hA : ∀ i j k, ∃ x : ℝ, A0 m c i j k = (x : EReal)) (hS : ∀ i d, ∃ x : ℝ, F0 m c i d = (x : EReal))
    (X : S4096x70.Idx → EReal) (hX : (dats (F := Ideal) m 0 c).arrAt 3 cfg0.N = X) (i : Fin 4096) (d : Fin 70) :
    X (ix2 i d) = ∑ b : Fin 4096, ((0 : EReal) + ∑ k : Fin 2, A0 m c i b k) * F0 m c b d := by
  have hacc := final3 m c _ rfl
  rw [hacc] at hX; subst hX
  rw [inv_out m c 63 last_lt i d, AF_eq, SR_eq]
  exact Spec.out_total (A0 m c) (F0 m c) hA hS i d

/-- Entry (j, d) of the channel-summed result after the run. -/
theorem in_value (c : Dev nD) (hA : ∀ i j k, ∃ x : ℝ, A0 m c i j k = (x : EReal)) (hS : ∀ i d, ∃ x : ℝ, F0 m c i d = (x : EReal))
    (j : Fin 4096) (d : Fin 70) :
    (Pipeline.afterTail₀ cfgs (dats (F := Ideal) m) 0 (V0 m) [hostOps1] c main_v5 : S4096x70.Idx → EReal) (ix2 j d)
      = ∑ a : Fin 4096, ((0 : EReal) + ∑ k : Fin 2, A0 m c a j k) * F0 m c a d := by
  rw [HostSide.tail_v5 m (dats (F := Ideal) m) c (accTmp (F := Ideal) m c 63 last_lt) (final4 m c _ rfl) j d]
  simp only [inv_tmp m c 63 last_lt]
  rw [AF_eq, S1_eq]
  exact Spec.in_total (A0 m c) (F0 m c) hA hS j d

end Cert.KernelIdeal.Results

end
-- ==== Proof.RefSide.lean ====
/-
  The reference's two results read at an index: each is a sum over the contracted node axis of
  (zero plus the two channels of the adjacency entry) times (the feature entry). The first result contracts the
  source node (the adjacency's leading axis), the second the target node (its middle axis).
-/
import proofs.«138078_j76536317215120_1_alg».proof.Proof.Gen.ReferenceIdeal.Read
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.ValueIdx

/-! ### The composed index maps, coordinate by coordinate -/

/-- First product, left operand: output (j, d) and contracted node a read the channel sum at (a, j), whose channel k
    is adjacency entry (a, j, k). -/
theorem idx_in (j : Fin 4096) (d : Fin 70) (a : Fin 4096) (k : Fin 2) :
    Read.idx_main_v0 (Read.lidx_main_v1 (ix2 j d) a) k = ix3 a j k :=
  funext fun c => Fin.ext (by match c with | ⟨0, _⟩ => rfl | ⟨1, _⟩ => rfl | ⟨2, _⟩ => rfl)

/-- First product, right operand: the feature entry (a, d). -/
theorem ridx_in (j : Fin 4096) (d : Fin 70) (a : Fin 4096) : Read.ridx_main_v1 (ix2 j d) a = ix2 a d :=
  funext fun c => Fin.ext (by match c with | ⟨0, _⟩ => rfl | ⟨1, _⟩ => rfl)

/-- Second product, left operand: output (i, d) and contracted node b read the channel sum at (i, b), whose channel k
    is adjacency entry (i, b, k). -/
theorem idx_out (i : Fin 4096) (d : Fin 70) (b : Fin 4096) (k : Fin 2) :
    Read.idx_main_v0 (Read.lidx_main_v2 (ix2 i d) b) k = ix3 i b k :=
  funext fun c => Fin.ext (by match c with | ⟨0, _⟩ => rfl | ⟨1, _⟩ => rfl | ⟨2, _⟩ => rfl)

/-- Second product, right operand: the feature entry (b, d). -/
theorem ridx_out (i : Fin 4096) (d : Fin 70) (b : Fin 4096) : Read.ridx_main_v2 (ix2 i d) b = ix2 b d :=
  funext fun c => Fin.ext (by match c with | ⟨0, _⟩ => rfl | ⟨1, _⟩ => rfl)

/-- The channel sum's initial value, the f32 word 0, is the extended real 0. -/
theorem cst_zero (i : S_.Idx) : Read.val_main_cst (F := Ideal) i = (0 : EReal) := by
  rw [Read.val_main_cst_apply]
  exact Ideal.ofBits_zero_f32

/-- Entry (j, d) of the first result: the sum over source nodes a of (0 + adj a j 0 + adj a j 1) * s a d. -/
theorem ref_in (x0 : (⟨S4096x4096x2, .f32⟩ : BufTy).Contents (Elt Ideal)) (x1 : (⟨S4096x70, .f32⟩ : BufTy).Contents (Elt Ideal))
    (j : Fin 4096) (d : Fin 70) :
    Read.val_main_v1 (F := Ideal) x0 x1 (ix2 j d)
      = ∑ a : Fin 4096, ((0 : EReal) + ∑ k : Fin 2, (x0 (ix3 a j k) : EReal)) * (x1 (ix2 a d) : EReal) := by
  rw [Read.val_main_v1_apply]
  refine Finset.sum_congr rfl fun a _ => ?_
  rw [Read.val_main_v0_apply, cst_zero, ridx_in]
  refine congrArg (fun t => ((0 : EReal) + t) * (x1 (ix2 a d) : EReal)) (Finset.sum_congr rfl fun k _ => ?_)
  rw [idx_in]

/-- Entry (i, d) of the second result: the sum over target nodes b of (0 + adj i b 0 + adj i b 1) * s b d. -/
theorem ref_out (x0 : (⟨S4096x4096x2, .f32⟩ : BufTy).Contents (Elt Ideal)) (x1 : (⟨S4096x70, .f32⟩ : BufTy).Contents (Elt Ideal))
    (i : Fin 4096) (d : Fin 70) :
    Read.val_main_v2 (F := Ideal) x0 x1 (ix2 i d)
      = ∑ b : Fin 4096, ((0 : EReal) + ∑ k : Fin 2, (x0 (ix3 i b k) : EReal)) * (x1 (ix2 b d) : EReal) := by
  rw [Read.val_main_v2_apply]
  refine Finset.sum_congr rfl fun b _ => ?_
  rw [Read.val_main_v0_apply, cst_zero, ridx_out]
  refine congrArg (fun t => ((0 : EReal) + t) * (x1 (ix2 b d) : EReal)) (Finset.sum_congr rfl fun k _ => ?_)
  rw [idx_out]

end Cert.ReferenceIdeal.RefSide

end
-- ==== Proof.Finite.lean ====
/-
  The precondition read back: when the printed predicate (every |entry| of both inputs below +inf, all conjoined)
  is all ones, every entry of both inputs is a real number.
-/
import proofs.«138078_j76536317215120_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The shape of rank 0 has exactly one index (the empty tuple). -/
instance : Subsingleton S_.Idx := ⟨fun a b => funext fun d => d.elim0⟩

/-- The f32 word 0x7F800000 (sign 0, exponent all ones, mantissa 0) denotes +∞. -/
theorem inf_word : Ideal.ofBits .f32 0x7F800000#32 = ⊤ := by simp [Ideal.ofBits, Ideal.ieee]

/-- An extended real whose absolute value `max x (-x)` compares strictly below +∞ is a real:
    at ⊥ the maximum is `-⊥ = ⊤`, at ⊤ it is ⊤, and ⊤ is not below ⊤; the only case left is a real. -/
theorem real_of_abs_lt_inf (x : EReal)
    (h : Ideal.cmp .olt (max x (-x)) (Ideal.ofBits .f32 0x7F800000#32) = 1#1) : ∃ r : ℝ, x = (r : EReal) := by
  rw [inf_word] at h
  -- the comparison is the one-bit word of the decision of `max x (-x) < ⊤`; it is 1 only if the decision is true
  have hd : decide (max x (-x) < ⊤) = true := by
    have hb : ∀ b : Bool, BitVec.ofBool b = 1#1 → b = true := by decide
    exact hb _ h
  have hlt : max x (-x) < ⊤ := of_decide_eq_true hd
  induction x using EReal.rec with
  | bot => simp at hlt
  | coe r => exact ⟨r, rfl⟩
  | top => simp at hlt

/-- Under the precondition every adjacency entry and every feature entry is (the coercion of) a real. -/
theorem reals_of_pre [Cert.Pre_finite_inputs.Facts]
    (x0 : FVec Ideal S4096x4096x2 .f32) (x1 : FVec Ideal S4096x70 .f32)
    (h : Cert.Pre_finite_inputs.fn (F := Ideal) x0 x1 = fun _ => 1#1) :
    (∀ i, ∃ r : ℝ, (x0 i : EReal) = (r : EReal)) ∧ (∀ i, ∃ r : ℝ, (x1 i : EReal) = (r : EReal)) := by
  -- read the predicate at its one index and open the printed chain of operations
  have h0 := congrFun h ValueIdx.ix0
  dsimp only [fn] at h0
  -- the final `and` of the two all-reductions is 1 exactly when both are
  obtain ⟨ha, hb⟩ := IntOp.andi_eq_one.1 h0
  -- an all-reduction by `and` that is 1 had a 1 at every index: |x i| < +∞ elementwise, for each input
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.Finite

end
-- ==== Proof.lean ====
/-
  The certificate. The kernel computes, for an adjacency tensor adj [4096, 4096, 2] and node features s [4096, 70],
    s_in  (j, d) = sum over i and k of adj (i, j, k) * s (i, d)      and
    s_out (i, d) = sum over j and k of adj (i, j, k) * s (j, d),
  by flattening (j, k) to one axis of 8192 columns, repeating every feature row twice, and accumulating block
  products over an 8 x 8 grid into two buffers that stay resident for the whole walk; the second buffer's rows
  2 * j and 2 * j + 1 are summed afterwards. The reference sums the two channels first and contracts once.
  Frames: the body is run in its two control cases (the first point zero-fills, the later points accumulate) at
  both float instances, over proof data that name each output buffer's accumulator point by point.
  preserves: the idealization rewrote nothing.
  algebraic: at the ideal instance an entry of either accumulator after the last point is the sum of the 64 block
  steps; for real inputs (the precondition) that sum is the reference's contraction, because a finite sum over the
  8192 columns is the double sum over node and channel and multiplication distributes over the two channels.
-/
import proofs.«138078_j76536317215120_1_alg».proof.Defs
import proofs.«138078_j76536317215120_1_alg».proof.Proof.Gen.Kernel
import proofs.«138078_j76536317215120_1_alg».proof.Proof.Gen.KernelIdeal
import proofs.«138078_j76536317215120_1_alg».proof.Proof.Gen.ReferenceIdeal
import proofs.«138078_j76536317215120_1_alg».proof.Proof.Gen.Pre_finite_inputs
import proofs.«138078_j76536317215120_1_alg».proof.Proof.Gen.ReferenceIdeal.Run
import proofs.«138078_j76536317215120_1_alg».proof.Proof.Gen.ReferenceIdeal.Read
import proofs.«138078_j76536317215120_1_alg».proof.Proof.KData
import proofs.«138078_j76536317215120_1_alg».proof.Proof.KIData
import proofs.«138078_j76536317215120_1_alg».proof.Proof.Results
import proofs.«138078_j76536317215120_1_alg».proof.Proof.RefSide
import proofs.«138078_j76536317215120_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments alone. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two contractions of the arguments. -/
theorem algebraic : Cert.algebraic_KernelIdeal_ReferenceIdeal := by
  intro m ρ m' ρ' hpre hagree
  refine ⟨fun c => Cert.ReferenceIdeal.Read.val_main_v1 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v2 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Body.run_main (F := Ideal) m ρ)
    obtain ⟨hA, hS⟩ := Cert.Finite.reals_of_pre _ _ (hpre c)
    have hA' : ∀ i j k, ∃ x : ℝ, Cert.KernelIdeal.Results.A0 m c i j k = (x : EReal) := fun i j k => hA (ix3 i j k)
    have hS' : ∀ i d, ∃ x : ℝ, Cert.KernelIdeal.Results.F0 m c i d = (x : EReal) := fun i d => hS (ix2 i d)
    refine ⟨?_, ?_, ?_, ?_⟩
    · refine ((h c).2 Cert.KernelIdeal.main_v5 (Pipeline.mem_restRefs_of Cert.KernelIdeal.main_v5 (by decide) (by decide))).trans ?_
      funext y
      obtain ⟨j, d, rfl⟩ : ∃ (j : Fin 4096) (d : Fin 70), y = ix2 j d := ⟨y 0, y 1, eq_ix2 y⟩
      exact (Cert.KernelIdeal.Results.in_value m c hA' hS' j d).trans (Cert.ReferenceIdeal.RefSide.ref_in _ _ j d).symm
    · refine ((h c).1 3).trans ?_
      funext y
      obtain ⟨i, d, rfl⟩ : ∃ (i : Fin 4096) (d : Fin 70), y = ix2 i d := ⟨y 0, y 1, eq_ix2 y⟩
      exact (Cert.KernelIdeal.Results.out_value m c hA' hS' _ rfl i d).trans (Cert.ReferenceIdeal.RefSide.ref_out _ _ i d).symm
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).1 1).trans (((Cert.KernelIdeal.Body.dats m 0 c).arrAt_in 1 rfl _).trans
        ((Cert.KernelIdeal.Body.A_eq m c 1).trans (Cert.KernelIdeal.Gen.V_main_arg1 m c)))
  · refine (θ_run Cert.ReferenceIdeal.defs _ _).mono (fun _ h c => ⟨(h c).1.trans ?_, (h c).2.1.trans ?_, (h c).2.2.1, (h c).2.2.2⟩)
      (Cert.ReferenceIdeal.Value.run (F := Ideal) m' ρ')
    · rw [(hagree c).1, (hagree c).2]; rfl
    · rw [(hagree c).1, (hagree c).2]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
